-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S2048x1024 : Shape := ⟨2, ![2048, 1024]⟩
abbrev S1024x256 : Shape := ⟨2, ![1024, 256]⟩
abbrev S2048x256 : Shape := ⟨2, ![2048, 256]⟩
abbrev S1024x1024 : Shape := ⟨2, ![1024, 1024]⟩
abbrev S256x1024 : Shape := ⟨2, ![256, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S8192x256, .f32⟩
  | .hbm, ⟨6, _⟩ => ⟨S8192x8192, .f32⟩
  | .local _ .vmem, ⟨0, _⟩ => ⟨S2048x1024, .f32⟩
  | .local _ .vmem, ⟨1, _⟩ => ⟨S2048x1024, .f32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S8192x256, .f32⟩
  | .local _ .vmem, ⟨10, _⟩ => ⟨S1024x1024, .f32⟩
  | .local _ .vmem, ⟨11, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_mult1 (i : grid1.Coords) : BitVec 32 :=
  let arg0 : BitVec 32 := BitVec.ofNat 32 (i 0).val
  let c1024_i32 : BitVec 32 := 1024#32
  let v0 : BitVec 32 := Scalar.muli arg0 c1024_i32
  v0
def k1_mult2 (i : grid1.Coords) : BitVec 32 :=
  let arg1 : BitVec 32 := BitVec.ofNat 32 (i 1).val
  let c1024_i32_0 : BitVec 32 := 1024#32
  let v2 : BitVec 32 := Scalar.muli arg1 c1024_i32_0
  v2
def k1_off1 (i : grid1.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  let c0 : Index := 0#32
  ![v4.toNat, 0]
def k1_off2 (i : grid1.Coords) : Fin 2 → Nat :=
  let arg1 : BitVec 32 := BitVec.ofNat 32 (i 1).val
  let c1024_i32_0 : BitVec 32 := 1024#32
  let v2 : BitVec 32 := Scalar.muli arg1 c1024_i32_0
  let v3 : BitVec 32 := v2
  let v8 : Index := Scalar.indexCast v3
  let c0_1 : Index := 0#32
  ![v8.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S8192x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S2048x1024_S2048x1024_0_0 : ∀ a, (![0, 0] : Fin 2 → Nat) a + S2048x1024.size a ≤ S2048x1024.size a
  h_S2048x1024 : 0 < S2048x1024.numel
  shapeCasts_S1024x256_S1024x256 : S1024x256.ShapeCasts S1024x256
  transposes_S1024x256_p1_0_S256x1024 : S1024x256.Transposes [1, 0] S256x1024
  inb_S1024x1024_S1024x1024_0_0 : ∀ a, (![0, 0] : Fin 2 → Nat) a + S1024x1024.size a ≤ S1024x1024.size a
  h_S1024x1024 : 0 < S1024x1024.numel
  dot_S1024x256_S256x256_S1024x256_1_0_0_1_n_n_wf : DotDims.WF S1024x256 S256x256 S1024x256 [1] [0] [0] [1] [] []
  dot_S2048x1024_S1024x256_S2048x256_1_0_0_1_n_n_wf : DotDims.WF S2048x1024 S1024x256 S2048x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x256.size a
  hwx0_4 : ∀ i : grid0.Coords, EltTy.bits .f32 = 32 ∨ (Rect.block (s := S8192x256) S2048x256.size (cc0_transform_4 i) (hinb0_4 i)).WholeWords (EltTy.packing .f32)
  hrank1 : 0 < grid1.rank
  k1_mult1_dvd : ∀ i : grid1.Coords, 1024 ∣ (k1_mult1 i).toNat
  k1_mult2_dvd : ∀ i : grid1.Coords, 1024 ∣ (k1_mult2 i).toNat
  k1_off1_inb : ∀ i : grid1.Coords, ∀ a, (k1_off1 i) a + S1024x256.size a ≤ S8192x256.size a
  k1_off2_inb : ∀ i : grid1.Coords, ∀ a, (k1_off2 i) a + S1024x256.size a ≤ S8192x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S8192x256.size a
  hwx1_0 : ∀ i : grid1.Coords, EltTy.bits .f32 = 32 ∨ (Rect.block (s := S8192x256) S8192x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v1) S8192x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S_ : Shape := ⟨0, ![]⟩
abbrev S256x8192 : Shape := ⟨2, ![256, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x256, .f32⟩
  | .hbm, ⟨5, _⟩ => ⟨S1x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192x256, .f32⟩
  | .hbm, ⟨11, _⟩ => ⟨S8192x256, .f32⟩
  | .hbm, ⟨12, _⟩ => ⟨S256x8192, .f32⟩
  | .hbm, ⟨13, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S8192x256_S256x8192_1_0 : S8192x256.Transposes [1, 0] S256x8192
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []
  dot_S8192x256_S256x8192_S8192x8192_1_0_0_1_n_n_wf : DotDims.WF S8192x256 S256x8192 S8192x8192 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Ideal.R0Common.lean ====
/-
  The first kernel region (the aggregation with its running sum): what its per-case runs share.

  The region's grid is 4 row blocks by 8 contraction blocks; point `t` is row block `t / 8` at contraction step `t % 8`.
  The body clears the running sum at step 0, adds one block product at every step, and at step 7 stores the positive
  part of the running sum into the output block. So there are three cases of its two conditionals: step 0 (clear, no
  output), steps 1 to 6 (no clear, no output), step 7 (no clear, output). Here: each window's block at a point, the two
  conditions in closed form over the grid, where the output window is idle and where it is written back, the memrefs
  the body is called with, and the region's invariant spelt as the running-sum buffer beside the other scoped buffers.
-/
import proofs.«120969_j54107997995612_1_alg».proof.Proof.Gen.KernelIdeal.Launch
import proofs.«120969_j54107997995612_1_alg».proof.Proof.Gen.KernelIdeal.Skeleton
import proofs.«120969_j54107997995612_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the window is fetched there or
    not (an unfetched window's block index has not moved), for any proof data whose array is the entry contents and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the window is fetched there or
    not (an unfetched window's block index has not moved), for any proof data whose array is the entry contents and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the window is fetched there or
    not (an unfetched window's block index has not moved), for any proof data whose array is the entry contents and
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the window is fetched there or
    not (an unfetched window's block index has not moved), for any proof data whose array is the entry contents and
    whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions over the grid -/

/-- "This is contraction step 0" as the body computes it from the second grid coordinate. -/
abbrev cond0_0 (i : grid0.Coords) : Prop := (Scalar.cmpi .ne (Scalar.extui (Scalar.cmpi .eq (BitVec.ofNat 32 (i 1).val) 0#32)) 0#32) = 1#1
/-- It holds exactly at the points that are 0 modulo 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last contraction step" as the body computes it. -/
abbrev cond0_1 (i : grid0.Coords) : Prop := k0_cond2 i = 1#1
/-- It holds exactly at the points that are 7 modulo 8. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle and where the output is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last contraction step the output window is idle (nothing is stored into it) -/
theorem idleAt0_4 : ∀ t : Fin cfg0.N, ¬cond0_1 (grid0.coords t) → cfg0.idle 4 (grid0.coords t) = true := by decide +kernel
/-- and is not written back; -/
theorem noFlush0_4 : ∀ t : Fin cfg0.N, ¬cond0_1 (grid0.coords t) → (cfg0.win 4).flush t = false := by decide +kernel
/-- at the last step it is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S2048x256 .f32 := (Memref.whole cc0_stg4_0 : Memref sig .tc .vmem S2048x256 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .f32 := win0_4.stage (cfg0.slots t 4)
abbrev hs0_4 (t : Fin cfg0.N) : (ms0_4 t).IsWhole := hstage0_4 ((cfg0.slots t 4).cast nbuf0_4)
/-- The running-sum buffer: a whole scoped buffer of the kernel's own, passed beside the windows. -/
abbrev scM0_0 : Memref sig .tc .vmem S2048x256 .f32 := Memref.whole cc0_scratch0
/-- The same as a view: what it holds is stated through it. -/
abbrev VS0_0 : View sig .tc .vmem S2048x256 .f32 := scM0_0.view

/-- The scoped buffers this region never touches (the second region's staging buffers), each at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The region's entry invariant (the scoped rest and the generator register) with the running-sum buffer as a memref
    owned at some contents. -/
theorem PhiA0_eq (c : Dev nD) :
    (Pipeline.ΦA spec0 c : sProp 𝕄)
      = iprop(iprop((∃ d, owns (c : Thread nD τ) scM0_0 fullShare d) ∗ otherScoped0 c) ∗ (∃ r, prngReg c r)) := by
  unfold Pipeline.ΦA otherScoped0; rw [scopedRest0_eq]; simp only [scM0_0, owns_whole]; try rfl

end Cert.KernelIdeal.Hand

end
-- ==== Proof.Ideal.R0RunA.lean ====
/-
  The first kernel region's body in case A: contraction step 0 — the running sum is cleared, one block product is added, nothing is stored into the output.
  The body is run on whole staging memrefs holding the point's input blocks; what it leaves in the running-sum buffer
  (and, at the last step, in the output buffer) is recorded as the list of pieces its stores wrote, found by the run.
-/
import proofs.«120969_j54107997995612_1_alg».proof.Proof.Ideal.R0Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in case A, with the proof that from the inputs' memrefs at
    their contents the body runs to the continuation holding the inputs as they were and each buffer it stored into
    with those pieces written. -/
noncomputable def kernelRun0_A (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S1024x256 .f32) (x2 : Vec F S256x256 .f32) (x3 : Vec F S1x256 .f32) :
    Σ' (L4 : List (View.Piece (Elt F) S2048x256 .f32)), { LS0 : List (View.Piece (Elt F) S2048x256 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_kernel i arg2 harg2 arg3 harg3 arg4 harg4 arg5 harg5 arg6 harg6 arg7 harg7) K } := by
  refine ⟨[], ?_, fun xi4 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.Ideal.R0RunB.lean ====
/-
  The first kernel region's body in case B: contraction steps 1 to 6 — one block product is added to the running sum the step before left, nothing is stored into the output.
  The body is run on whole staging memrefs holding the point's input blocks; what it leaves in the running-sum buffer
  (and, at the last step, in the output buffer) is recorded as the list of pieces its stores wrote, found by the run.
-/
import proofs.«120969_j54107997995612_1_alg».proof.Proof.Ideal.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in case B, with the proof that from the inputs' memrefs at
    their contents the body runs to the continuation holding the inputs as they were and each buffer it stored into
    with those pieces written. -/
noncomputable def kernelRun0_B (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S1024x256 .f32) (x2 : Vec F S256x256 .f32) (x3 : Vec F S1x256 .f32) (xs0 : Vec F S2048x256 .f32) :
    Σ' (L4 : List (View.Piece (Elt F) S2048x256 .f32)), { LS0 : List (View.Piece (Elt F) S2048x256 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_kernel i arg2 harg2 arg3 harg3 arg4 harg4 arg5 harg5 arg6 harg6 arg7 harg7) K } := by
  refine ⟨[], ?_, fun xi4 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.Ideal.R0RunC.lean ====
/-
  The first kernel region's body in case C: the last contraction step — one block product is added to the running sum, and the positive part of the sum is stored into the output buffer.
  The body is run on whole staging memrefs holding the point's input blocks; what it leaves in the running-sum buffer
  (and, at the last step, in the output buffer) is recorded as the list of pieces its stores wrote, found by the run.
-/
import proofs.«120969_j54107997995612_1_alg».proof.Proof.Ideal.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave (last first) in case C, with the proof that from the inputs' memrefs at
    their contents the body runs to the continuation holding the inputs as they were and each buffer it stored into
    with those pieces written. -/
noncomputable def kernelRun0_C (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .f32) (x2 : Vec F S256x256 .f32) (x3 : Vec F S1x256 .f32) (xs0 : Vec F S2048x256 .f32) :
    Σ' (L4 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.Ideal.R0Dat.lean ====
/-
  The first kernel region: what its buffers hold point by point, the proof data, and the body obligation.

  After point `n` the running-sum buffer holds: at a step-0 point, the first block product added to zero; otherwise
  the block product of that point added to what the point before left. The output buffer holds the positive part of
  the running sum after each last-step point (the only points where it is stored and written back). The region's
  invariant before point `n > 0` is the running-sum buffer at what point `n − 1` left, beside the scoped buffers the
  region never touches and the generator register; before the first point it is the scoped rest at anything.
-/
import proofs.«120969_j54107997995612_1_alg».proof.Proof.Ideal.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the running-sum buffer covers it: its last store is the whole buffer. -/
theorem scover0_A_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S1024x256 .f32) (x2 : Vec F S256x256 .f32) (x3 : Vec F S1x256 .f32) (y : S2048x256.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S2048x256.size (by sl_kernel_rfl) y

/-- What case A leaves in the running-sum buffer: its pieces read back. -/
def sout0_A_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S1024x256 .f32) (x2 : Vec F S256x256 .f32) (x3 : Vec F S1x256 .f32) : Vec F S2048x256 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case A leaves in the output buffer, read back (nothing is stored there in this case: a placeholder nothing consults, the window being idle and not written back at these points). -/
def out0_A_4 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S1024x256 .f32) (x2 : Vec F S256x256 .f32) (x3 : Vec F S1x256 .f32) : Vec F S2048x256 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- What case B leaves in the running-sum buffer covers it: its last store is the whole buffer. -/
theorem scover0_B_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S1024x256 .f32) (x2 : Vec F S256x256 .f32) (x3 : Vec F S1x256 .f32) (xs0 : Vec F S2048x256 .f32) (y : S2048x256.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S2048x256.size (by sl_kernel_rfl) y

/-- What case B leaves in the running-sum buffer: its pieces read back. -/
def sout0_B_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S1024x256 .f32) (x2 : Vec F S256x256 .f32) (x3 : Vec F S1x256 .f32) (xs0 : Vec F S2048x256 .f32) : Vec F S2048x256 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- What case B leaves in the output buffer, read back (nothing is stored there in this case: a placeholder nothing consults, the window being idle and not written back at these points). -/
def out0_B_4 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S1024x256 .f32) (x2 : Vec F S256x256 .f32) (x3 : Vec F S1x256 .f32) (xs0 : Vec F S2048x256 .f32) : Vec F S2048x256 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- What case C leaves in the running-sum buffer covers it: its last store is the whole buffer. -/
theorem scover0_C_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .f32) (x2 : Vec F S256x256 .f32) (x3 : Vec F S1x256 .f32) (xs0 : Vec F S2048x256 .f32) (y : S2048x256.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S2048x256.size (by sl_kernel_rfl) y

/-- What case C leaves in the running-sum buffer: its pieces read back. -/
def sout0_C_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .f32) (x2 : Vec F S256x256 .f32) (x3 : Vec F S1x256 .f32) (xs0 : Vec F S2048x256 .f32) : Vec F S2048x256 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- What case C leaves in the output buffer, read back. -/
def out0_C_4 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .f32) (x2 : Vec F S256x256 .f32) (x3 : Vec F S1x256 .f32) (xs0 : Vec F S2048x256 .f32) : Vec F S2048x256 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's one store into the output buffer is the whole buffer, so its pieces cover it. -/
theorem cover0_C_4 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .f32) (x2 : Vec F S256x256 .f32) (x3 : Vec F S1x256 .f32) (xs0 : Vec F S2048x256 .f32) (y : S2048x256.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S2048x256.size (by sl_kernel_rfl) y

/-! ## What the buffers hold after each point -/

/-- After the body at position `n`: the output buffer's contents and the running-sum buffer's, by recursion on the
    point — the case the point's step selects, run at the point's memrefs and input blocks, the running sum taken
    from the point before where the case reads it. -/
def outsAt0 (c : Dev nD) : (n : ℕ) → n < cfg0.N → Vec F S2048x256 .f32 × Vec F S2048x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- At a step-0 point: case A's contents. -/
theorem outsAt0_A (c : Dev nD) (t : Fin cfg0.N) (h0 : t.val % 8 = 0) (h1 : ¬t.val % 8 = 7) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- At a middle point: case B's contents over what the point before left. -/
theorem outsAt0_B (c : Dev nD) (t : Fin cfg0.N) (h0 : ¬t.val % 8 = 0) (h1 : ¬t.val % 8 = 7) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last-step point: case C's contents over what the point before left. -/
theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the first point the scoped rest at anything; afterwards the running-sum buffer at what the
    point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ otherScoped0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped0 c) ∗ (∃ r, prngReg c r)) := by
  cases n with
  | zero => exact absurd rfl hz
  | succ n => rfl

/-! ## The proof data -/

/-- The region's proof data on core `c`: the arrays as the region finds them; after the body at point `t` each input's
    buffer at its block and the output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.KernelIdeal.Hand

end
-- ==== Proof.Ideal.R0Body.lean ====
/-
  The first kernel region's body obligation: at every grid point the body, called on the current staging memrefs,
  takes the invariant and the inputs' blocks to the invariant at the next point and each buffer at what the proof data
  says — by cases on the point's contraction step (0, middle, last), each case its run.
-/
import proofs.«120969_j54107997995612_1_alg».proof.Proof.Ideal.R0Dat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the step decides the case; the invariant hands the
    body the running-sum buffer at what the point before left (at anything before the first point) and takes it back at
    this point's contents; the output buffer is handed back untouched off the last step and at the positive part of the
    running sum at it; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C_0; (try dsimp only)
      have hz : t.val ≠ 0 := by omega
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      have hz : t.val ≠ 0 := by omega
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the scoped rest back: the running sum's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.Ideal.Region1.lean ====
import proofs.«120969_j54107997995612_1_alg».proof.Proof.Gen.KernelIdeal.Launch
import proofs.«120969_j54107997995612_1_alg».proof.Proof.Gen.KernelIdeal.Skeleton
import proofs.«120969_j54107997995612_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second kernel region: custom call 1, the outer-product kernel on its 8 x 8 grid, at the entry contents `V`

The body at grid point `i` reads two row slabs of its one input buffer (the whole 8192 x 256 array, staged once):
rows `1024 * i 0 ..` and rows `1024 * i 1 ..`, each 1024 x 256, and stores into its 1024 x 1024 output buffer the
product of the first slab with the transpose of the second (both rounded to the narrow format first). So what the
body leaves in the output buffer is a closed function of the point and of the input array. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block — the whole array — at every point, although it is fetched
    at the first point only: for ANY proof data whose array is `V`'s (`hA`) and whose body leaves the block in
    place (`hafter`). Where the window is not fetched its block index has not moved (it never moves: the index map
    is constant), so the buffer still holds the block; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The first slab read at point `i`: 1024 rows from row `1024 * i 0`, all 256 columns. -/
abbrev r1_a (i : grid1.Coords) : Rect S8192x256 := Rect.unit (s := S8192x256) (k1_off1 i) S1024x256.size (k1_off1_inb i)
/-- The second slab read at point `i`: 1024 rows from row `1024 * i 1`, all 256 columns. -/
abbrev r1_b (i : grid1.Coords) : Rect S8192x256 := Rect.unit (s := S8192x256) (k1_off2 i) S1024x256.size (k1_off2_inb i)
/-- The one store: the whole output buffer. -/
abbrev r1_o : Rect S1024x1024 := Rect.unit (s := S1024x1024) ![0, 0] S1024x1024.size inb_S1024x1024_S1024x1024_0_0

/-! ## What the body leaves in the output window's buffer -/

/-- The output window's staging buffer after the body at point `i`, from the input array `x0`: its one store, whose
    payload is the product of the two slabs of `x0` the point selects. -/
def out1_1 (i : grid1.Coords) (x0 : Vec F S8192x256 .f32) : Vec F S1024x1024 .f32 :=
  View.canon [⟨r1_o, k1_pay1 (View.ld x0 (r1_a i)) (View.ld x0 (r1_b i))⟩]

/-- The store is of the whole buffer, so it covers it: one tile of the buffer's own extents. -/
theorem cover1_1 (p0 : Vec F S1024x1024 .f32) (y : S1024x1024.Idx) :
    ∃ pc ∈ ([⟨r1_o, p0⟩] : List (View.Piece (Elt F) S1024x1024 .f32)), y ∈ pc.1.set :=
  View.cover_of_tiled [⟨r1_o, p0⟩] S1024x1024.size (by rfl) y

/-! ## The body's triple -/

set_option maxHeartbeats 1000000 in
/-- The kernel body at point `i` on whole staging memrefs, the input's at read contents `x0` and the output's at
    anything, runs to the continuation holding the input's as it was and the output's at `out1_1 i x0`: the two loads
    of the input read `x0` through their rectangles, the load of the output is of a value never used, and the one
    store, covering the buffer, leaves its payload whatever was there. -/
theorem sound_kernel1 (c : Dev nD) (E : Set ℕ) (i : grid1.Coords) (arg2 : Memref sig .tc .vmem S8192x256 .f32) (harg2 : arg2.IsWhole) (arg3 : Memref sig .tc .vmem S1024x1024 .f32) (harg3 : arg3.IsWhole)
    (x0 : Vec F S8192x256 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 i x0)) -∗ K ⟨⟩))
      ⊢ wp frame (wpE (defs₀ (F := F)) Variants.none c none) E (cc1__outer_kernel i arg2 harg2 arg3 harg3) K := by
  simp only [cc1__outer_kernel_eq_skeleton]; unfold cc1__outer_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of this pipeline on core `c`: the arrays as the region finds them (`V`); after the body at
    point `t` the input's buffer at its block (the whole array) and the output's at `out1_1` of the point's
    coordinates and the input block; the invariant the scoped rest and the generator register, untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (grid1.coords t) (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (grid1.coords t) (iblk1 V c 0 t) := by dsimp only [dat1]

/-- The input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block (`before1_0`), so the body's triple applies at the
    point's coordinates; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Run.lean ====
/-
  THE RUN of the program: a host stretch (one reshape), then the two kernel regions, nothing between or after them.

  The buffers' contents at each boundary are a fold through the program: the launch memory; after the reshape; after
  the first region (its arrays at what its write-backs leave, every other buffer as entered); after the second region
  (likewise). Each region is entered from "every unscoped buffer at the boundary's contents, the generator register at
  some state, nothing owed" and left at the same over the next boundary's contents. At the end every unscoped buffer is
  read off the last boundary: the result array holds what the second region's write-backs leave, and each argument
  array holds what was launched, no operation and no region having written it.
-/
import proofs.«120969_j54107997995612_1_alg».proof.Proof.Ideal.R0Body
import proofs.«120969_j54107997995612_1_alg».proof.Proof.Ideal.Region1
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the host stretch (the first region's entry). -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- At the first region's exit, which is the second region's entry: its arrays at what the pipeline leaves (the
    inputs as entered, the output's write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (what the second region's proof data take). -/
abbrev V2 : (c : Dev nD) → (b : Ref sig .tc) → Buf (Elt F) ((c : Thread nD τ).loc b) := fun c b => W2 m ρ c b
/-- At the first region's exit each of its arrays holds what the pipeline leaves and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit (the end): its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the end contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the host stretch leaves: the reshape writes its own result and nothing else -/

/-- A buffer other than the reshape's result is, after the host stretch, as launched. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- Each argument array enters the first region as launched. -/
theorem V1_main_arg0 (c : Dev nD) : V1 m ρ c main_arg0 = m ((c : Thread nD τ).loc main_arg0) :=
  (W1_of_ne m ρ c main_arg0 (by decide)).trans rfl
theorem V1_main_arg1 (c : Dev nD) : V1 m ρ c main_arg1 = m ((c : Thread nD τ).loc main_arg1) :=
  (W1_of_ne m ρ c main_arg1 (by decide)).trans rfl
theorem V1_main_arg2 (c : Dev nD) : V1 m ρ c main_arg2 = m ((c : Thread nD τ).loc main_arg2) :=
  (W1_of_ne m ρ c main_arg2 (by decide)).trans rfl
theorem V1_main_arg3 (c : Dev nD) : V1 m ρ c main_arg3 = m ((c : Thread nD τ).loc main_arg3) :=
  (W1_of_ne m ρ c main_arg3 (by decide)).trans rfl

/-- The reshape's result enters the first region as the bias vector launched, recast as one row. -/
theorem V1_main_v0 (c : Dev nD) :
    V1 m ρ c main_v0 = shapeCast S1x256 (m ((c : Thread nD τ).loc main_arg3)) shapeCasts_S256_S1x256 := by
  show StableHlo.after hostOps0 _ (Proc.devRef .tc main_v0) = _
  after_results
  rfl

/-- The first region's result array enters the second region at what the first region's write-backs leave. -/
theorem V2_main_v1 (c : Dev nD) : V2 m ρ c main_v1 = (dat0 (V1 m ρ) c).arrAt 4 cfg0.N :=
  W2_arr m ρ c 4

/-! ### The arguments end as launched: the reshape writes none, and a region reads one through an input window
    (whose array the pipeline leaves as entered) or does not touch it -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = m ((c : Thread nD τ).loc main_arg0) := V1_main_arg0 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := V1_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = m ((c : Thread nD τ).loc main_arg2) := V1_main_arg2 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := V1_main_arg3 m ρ c

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- THE FIRST REGION over the thread state: entered from every unscoped buffer at `W1`, left at `W2`. Its arrays
    split out of the unscoped buffers and put back at the exit contents; the generator register and the scoped
    buffers into the region's invariant at the first point and out of it at the last (the running sum's contents
    forgotten); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W2`, left at `W3` (what the
    launch reads at the end). Its arrays split out of the unscoped buffers and put back at the exit contents; the
    generator register into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 3 segments in order: the host stretch from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of the program on
    the TensorCores terminates, nothing faulting, and every final state has the result array at what the second
    region's write-backs leave and each argument array as launched: the last thread state read against the final
    state, the result by `W3_arr`, each argument by its `W3_main_arg` lemma. -/
theorem run_main : θ_run defs (onTc (τ := τ) (main (F := F))) ⟨m, fun _ => 0, ρ⟩ (fun r => ∀ c : Dev nD,
      r.2.mem ((c.tc : Thread nD τ).loc main_v2) = (dat1 (V2 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_arr m ρ c 1),
        (h c _ (mem_uc main_arg0 (by decide))).trans (W3_main_arg0 m ρ c),
        (h c _ (mem_uc main_arg1 (by decide))).trans (W3_main_arg1 m ρ c),
        (h c _ (mem_uc main_arg2 (by decide))).trans (W3_main_arg2 m ρ c),
        (h c _ (mem_uc main_arg3 (by decide))).trans (W3_main_arg3 m ρ c)⟩)

end Cert.KernelIdeal.Hand

end
-- ==== Proof.Bits.R0Common.lean ====
/-
  The first kernel region (the aggregation with its running sum): what its per-case runs share.

  The region's grid is 4 row blocks by 8 contraction blocks; point `t` is row block `t / 8` at contraction step `t % 8`.
  The body clears the running sum at step 0, adds one block product at every step, and at step 7 stores the positive
  part of the running sum into the output block. So there are three cases of its two conditionals: step 0 (clear, no
  output), steps 1 to 6 (no clear, no output), step 7 (no clear, output). Here: each window's block at a point, the two
  conditions in closed form over the grid, where the output window is idle and where it is written back, the memrefs
  the body is called with, and the region's invariant spelt as the running-sum buffer beside the other scoped buffers.
-/
import proofs.«120969_j54107997995612_1_alg».proof.Proof.Gen.Kernel.Launch
import proofs.«120969_j54107997995612_1_alg».proof.Proof.Gen.Kernel.Skeleton
import proofs.«120969_j54107997995612_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the window is fetched there or
    not (an unfetched window's block index has not moved), for any proof data whose array is the entry contents and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the window is fetched there or
    not (an unfetched window's block index has not moved), for any proof data whose array is the entry contents and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the window is fetched there or
    not (an unfetched window's block index has not moved), for any proof data whose array is the entry contents and
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the window is fetched there or
    not (an unfetched window's block index has not moved), for any proof data whose array is the entry contents and
    whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions over the grid -/

/-- "This is contraction step 0" as the body computes it from the second grid coordinate. -/
abbrev cond0_0 (i : grid0.Coords) : Prop := (Scalar.cmpi .ne (Scalar.extui (Scalar.cmpi .eq (BitVec.ofNat 32 (i 1).val) 0#32)) 0#32) = 1#1
/-- It holds exactly at the points that are 0 modulo 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last contraction step" as the body computes it. -/
abbrev cond0_1 (i : grid0.Coords) : Prop := k0_cond2 i = 1#1
/-- It holds exactly at the points that are 7 modulo 8. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle and where the output is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last contraction step the output window is idle (nothing is stored into it) -/
theorem idleAt0_4 : ∀ t : Fin cfg0.N, ¬cond0_1 (grid0.coords t) → cfg0.idle 4 (grid0.coords t) = true := by decide +kernel
/-- and is not written back; -/
theorem noFlush0_4 : ∀ t : Fin cfg0.N, ¬cond0_1 (grid0.coords t) → (cfg0.win 4).flush t = false := by decide +kernel
/-- at the last step it is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S2048x256 .f32 := (Memref.whole cc0_stg4_0 : Memref sig .tc .vmem S2048x256 .f32).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .f32 := win0_4.stage (cfg0.slots t 4)
abbrev hs0_4 (t : Fin cfg0.N) : (ms0_4 t).IsWhole := hstage0_4 ((cfg0.slots t 4).cast nbuf0_4)
/-- The running-sum buffer: a whole scoped buffer of the kernel's own, passed beside the windows. -/
abbrev scM0_0 : Memref sig .tc .vmem S2048x256 .f32 := Memref.whole cc0_scratch0
/-- The same as a view: what it holds is stated through it. -/
abbrev VS0_0 : View sig .tc .vmem S2048x256 .f32 := scM0_0.view

/-- The scoped buffers this region never touches (the second region's staging buffers), each at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The region's entry invariant (the scoped rest and the generator register) with the running-sum buffer as a memref
    owned at some contents. -/
theorem PhiA0_eq (c : Dev nD) :
    (Pipeline.ΦA spec0 c : sProp 𝕄)
      = iprop(iprop((∃ d, owns (c : Thread nD τ) scM0_0 fullShare d) ∗ otherScoped0 c) ∗ (∃ r, prngReg c r)) := by
  unfold Pipeline.ΦA otherScoped0; rw [scopedRest0_eq]; simp only [scM0_0, owns_whole]; try rfl

end Cert.Kernel.Hand

end
-- ==== Proof.Bits.R0RunA.lean ====
/-
  The first kernel region's body in case A: contraction step 0 — the running sum is cleared, one block product is added, nothing is stored into the output.
  The body is run on whole staging memrefs holding the point's input blocks; what it leaves in the running-sum buffer
  (and, at the last step, in the output buffer) is recorded as the list of pieces its stores wrote, found by the run.
-/
import proofs.«120969_j54107997995612_1_alg».proof.Proof.Bits.R0Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in case A, with the proof that from the inputs' memrefs at
    their contents the body runs to the continuation holding the inputs as they were and each buffer it stored into
    with those pieces written. -/
noncomputable def kernelRun0_A (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S1024x256 .f32) (x2 : Vec F S256x256 .f32) (x3 : Vec F S1x256 .f32) :
    Σ' (L4 : List (View.Piece (Elt F) S2048x256 .f32)), { LS0 : List (View.Piece (Elt F) S2048x256 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_kernel i arg2 harg2 arg3 harg3 arg4 harg4 arg5 harg5 arg6 harg6 arg7 harg7) K } := by
  refine ⟨[], ?_, fun xi4 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.Bits.R0RunB.lean ====
/-
  The first kernel region's body in case B: contraction steps 1 to 6 — one block product is added to the running sum the step before left, nothing is stored into the output.
  The body is run on whole staging memrefs holding the point's input blocks; what it leaves in the running-sum buffer
  (and, at the last step, in the output buffer) is recorded as the list of pieces its stores wrote, found by the run.
-/
import proofs.«120969_j54107997995612_1_alg».proof.Proof.Bits.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in case B, with the proof that from the inputs' memrefs at
    their contents the body runs to the continuation holding the inputs as they were and each buffer it stored into
    with those pieces written. -/
noncomputable def kernelRun0_B (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S1024x256 .f32) (x2 : Vec F S256x256 .f32) (x3 : Vec F S1x256 .f32) (xs0 : Vec F S2048x256 .f32) :
    Σ' (L4 : List (View.Piece (Elt F) S2048x256 .f32)), { LS0 : List (View.Piece (Elt F) S2048x256 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_kernel i arg2 harg2 arg3 harg3 arg4 harg4 arg5 harg5 arg6 harg6 arg7 harg7) K } := by
  refine ⟨[], ?_, fun xi4 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.Bits.R0RunC.lean ====
/-
  The first kernel region's body in case C: the last contraction step — one block product is added to the running sum, and the positive part of the sum is stored into the output buffer.
  The body is run on whole staging memrefs holding the point's input blocks; what it leaves in the running-sum buffer
  (and, at the last step, in the output buffer) is recorded as the list of pieces its stores wrote, found by the run.
-/
import proofs.«120969_j54107997995612_1_alg».proof.Proof.Bits.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave (last first) in case C, with the proof that from the inputs' memrefs at
    their contents the body runs to the continuation holding the inputs as they were and each buffer it stored into
    with those pieces written. -/
noncomputable def kernelRun0_C (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .f32) (x2 : Vec F S256x256 .f32) (x3 : Vec F S1x256 .f32) (xs0 : Vec F S2048x256 .f32) :
    Σ' (L4 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.Bits.R0Dat.lean ====
/-
  The first kernel region: what its buffers hold point by point, the proof data, and the body obligation.

  After point `n` the running-sum buffer holds: at a step-0 point, the first block product added to zero; otherwise
  the block product of that point added to what the point before left. The output buffer holds the positive part of
  the running sum after each last-step point (the only points where it is stored and written back). The region's
  invariant before point `n > 0` is the running-sum buffer at what point `n − 1` left, beside the scoped buffers the
  region never touches and the generator register; before the first point it is the scoped rest at anything.
-/
import proofs.«120969_j54107997995612_1_alg».proof.Proof.Bits.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the running-sum buffer covers it: its last store is the whole buffer. -/
theorem scover0_A_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S1024x256 .f32) (x2 : Vec F S256x256 .f32) (x3 : Vec F S1x256 .f32) (y : S2048x256.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S2048x256.size (by sl_kernel_rfl) y

/-- What case A leaves in the running-sum buffer: its pieces read back. -/
def sout0_A_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S1024x256 .f32) (x2 : Vec F S256x256 .f32) (x3 : Vec F S1x256 .f32) : Vec F S2048x256 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case A leaves in the output buffer, read back (nothing is stored there in this case: a placeholder nothing consults, the window being idle and not written back at these points). -/
def out0_A_4 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S1024x256 .f32) (x2 : Vec F S256x256 .f32) (x3 : Vec F S1x256 .f32) : Vec F S2048x256 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- What case B leaves in the running-sum buffer covers it: its last store is the whole buffer. -/
theorem scover0_B_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S1024x256 .f32) (x2 : Vec F S256x256 .f32) (x3 : Vec F S1x256 .f32) (xs0 : Vec F S2048x256 .f32) (y : S2048x256.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S2048x256.size (by sl_kernel_rfl) y

/-- What case B leaves in the running-sum buffer: its pieces read back. -/
def sout0_B_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S1024x256 .f32) (x2 : Vec F S256x256 .f32) (x3 : Vec F S1x256 .f32) (xs0 : Vec F S2048x256 .f32) : Vec F S2048x256 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- What case B leaves in the output buffer, read back (nothing is stored there in this case: a placeholder nothing consults, the window being idle and not written back at these points). -/
def out0_B_4 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S1024x256 .f32) (x2 : Vec F S256x256 .f32) (x3 : Vec F S1x256 .f32) (xs0 : Vec F S2048x256 .f32) : Vec F S2048x256 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- What case C leaves in the running-sum buffer covers it: its last store is the whole buffer. -/
theorem scover0_C_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .f32) (x2 : Vec F S256x256 .f32) (x3 : Vec F S1x256 .f32) (xs0 : Vec F S2048x256 .f32) (y : S2048x256.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S2048x256.size (by sl_kernel_rfl) y

/-- What case C leaves in the running-sum buffer: its pieces read back. -/
def sout0_C_0 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .f32) (x2 : Vec F S256x256 .f32) (x3 : Vec F S1x256 .f32) (xs0 : Vec F S2048x256 .f32) : Vec F S2048x256 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- What case C leaves in the output buffer, read back. -/
def out0_C_4 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .f32) (x2 : Vec F S256x256 .f32) (x3 : Vec F S1x256 .f32) (xs0 : Vec F S2048x256 .f32) : Vec F S2048x256 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's one store into the output buffer is the whole buffer, so its pieces cover it. -/
theorem cover0_C_4 (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .f32) (x2 : Vec F S256x256 .f32) (x3 : Vec F S1x256 .f32) (xs0 : Vec F S2048x256 .f32) (y : S2048x256.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S2048x256.size (by sl_kernel_rfl) y

/-! ## What the buffers hold after each point -/

/-- After the body at position `n`: the output buffer's contents and the running-sum buffer's, by recursion on the
    point — the case the point's step selects, run at the point's memrefs and input blocks, the running sum taken
    from the point before where the case reads it. -/
def outsAt0 (c : Dev nD) : (n : ℕ) → n < cfg0.N → Vec F S2048x256 .f32 × Vec F S2048x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- At a step-0 point: case A's contents. -/
theorem outsAt0_A (c : Dev nD) (t : Fin cfg0.N) (h0 : t.val % 8 = 0) (h1 : ¬t.val % 8 = 7) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- At a middle point: case B's contents over what the point before left. -/
theorem outsAt0_B (c : Dev nD) (t : Fin cfg0.N) (h0 : ¬t.val % 8 = 0) (h1 : ¬t.val % 8 = 7) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last-step point: case C's contents over what the point before left. -/
theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the first point the scoped rest at anything; afterwards the running-sum buffer at what the
    point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ otherScoped0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped0 c) ∗ (∃ r, prngReg c r)) := by
  cases n with
  | zero => exact absurd rfl hz
  | succ n => rfl

/-! ## The proof data -/

/-- The region's proof data on core `c`: the arrays as the region finds them; after the body at point `t` each input's
    buffer at its block and the output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.Kernel.Hand

end
-- ==== Proof.Bits.R0Body.lean ====
/-
  The first kernel region's body obligation: at every grid point the body, called on the current staging memrefs,
  takes the invariant and the inputs' blocks to the invariant at the next point and each buffer at what the proof data
  says — by cases on the point's contraction step (0, middle, last), each case its run.
-/
import proofs.«120969_j54107997995612_1_alg».proof.Proof.Bits.R0Dat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the step decides the case; the invariant hands the
    body the running-sum buffer at what the point before left (at anything before the first point) and takes it back at
    this point's contents; the output buffer is handed back untouched off the last step and at the positive part of the
    running sum at it; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C_0; (try dsimp only)
      have hz : t.val ≠ 0 := by omega
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      have hz : t.val ≠ 0 := by omega
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the scoped rest back: the running sum's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.Bits.Region1.lean ====
import proofs.«120969_j54107997995612_1_alg».proof.Proof.Gen.Kernel.Launch
import proofs.«120969_j54107997995612_1_alg».proof.Proof.Gen.Kernel.Skeleton
import proofs.«120969_j54107997995612_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second kernel region: custom call 1, the outer-product kernel on its 8 x 8 grid, at the entry contents `V`

The body at grid point `i` reads two row slabs of its one input buffer (the whole 8192 x 256 array, staged once):
rows `1024 * i 0 ..` and rows `1024 * i 1 ..`, each 1024 x 256, and stores into its 1024 x 1024 output buffer the
product of the first slab with the transpose of the second (both rounded to the narrow format first). So what the
body leaves in the output buffer is a closed function of the point and of the input array. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block — the whole array — at every point, although it is fetched
    at the first point only: for ANY proof data whose array is `V`'s (`hA`) and whose body leaves the block in
    place (`hafter`). Where the window is not fetched its block index has not moved (it never moves: the index map
    is constant), so the buffer still holds the block; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The first slab read at point `i`: 1024 rows from row `1024 * i 0`, all 256 columns. -/
abbrev r1_a (i : grid1.Coords) : Rect S8192x256 := Rect.unit (s := S8192x256) (k1_off1 i) S1024x256.size (k1_off1_inb i)
/-- The second slab read at point `i`: 1024 rows from row `1024 * i 1`, all 256 columns. -/
abbrev r1_b (i : grid1.Coords) : Rect S8192x256 := Rect.unit (s := S8192x256) (k1_off2 i) S1024x256.size (k1_off2_inb i)
/-- The one store: the whole output buffer. -/
abbrev r1_o : Rect S1024x1024 := Rect.unit (s := S1024x1024) ![0, 0] S1024x1024.size inb_S1024x1024_S1024x1024_0_0

/-! ## What the body leaves in the output window's buffer -/

/-- The output window's staging buffer after the body at point `i`, from the input array `x0`: its one store, whose
    payload is the product of the two slabs of `x0` the point selects. -/
def out1_1 (i : grid1.Coords) (x0 : Vec F S8192x256 .f32) : Vec F S1024x1024 .f32 :=
  View.canon [⟨r1_o, k1_pay1 (View.ld x0 (r1_a i)) (View.ld x0 (r1_b i))⟩]

/-- The store is of the whole buffer, so it covers it: one tile of the buffer's own extents. -/
theorem cover1_1 (p0 : Vec F S1024x1024 .f32) (y : S1024x1024.Idx) :
    ∃ pc ∈ ([⟨r1_o, p0⟩] : List (View.Piece (Elt F) S1024x1024 .f32)), y ∈ pc.1.set :=
  View.cover_of_tiled [⟨r1_o, p0⟩] S1024x1024.size (by rfl) y

/-! ## The body's triple -/

set_option maxHeartbeats 1000000 in
/-- The kernel body at point `i` on whole staging memrefs, the input's at read contents `x0` and the output's at
    anything, runs to the continuation holding the input's as it was and the output's at `out1_1 i x0`: the two loads
    of the input read `x0` through their rectangles, the load of the output is of a value never used, and the one
    store, covering the buffer, leaves its payload whatever was there. -/
theorem sound_kernel1 (c : Dev nD) (E : Set ℕ) (i : grid1.Coords) (arg2 : Memref sig .tc .vmem S8192x256 .f32) (harg2 : arg2.IsWhole) (arg3 : Memref sig .tc .vmem S1024x1024 .f32) (harg3 : arg3.IsWhole)
    (x0 : Vec F S8192x256 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 i x0)) -∗ K ⟨⟩))
      ⊢ wp frame (wpE (defs₀ (F := F)) Variants.none c none) E (cc1__outer_kernel i arg2 harg2 arg3 harg3) K := by
  simp only [cc1__outer_kernel_eq_skeleton]; unfold cc1__outer_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of this pipeline on core `c`: the arrays as the region finds them (`V`); after the body at
    point `t` the input's buffer at its block (the whole array) and the output's at `out1_1` of the point's
    coordinates and the input block; the invariant the scoped rest and the generator register, untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (grid1.coords t) (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (grid1.coords t) (iblk1 V c 0 t) := by dsimp only [dat1]

/-- The input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block (`before1_0`), so the body's triple applies at the
    point's coordinates; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
/-
  THE RUN of the program: a host stretch (one reshape), then the two kernel regions, nothing between or after them.

  The buffers' contents at each boundary are a fold through the program: the launch memory; after the reshape; after
  the first region (its arrays at what its write-backs leave, every other buffer as entered); after the second region
  (likewise). Each region is entered from "every unscoped buffer at the boundary's contents, the generator register at
  some state, nothing owed" and left at the same over the next boundary's contents. At the end every unscoped buffer is
  read off the last boundary: the result array holds what the second region's write-backs leave, and each argument
  array holds what was launched, no operation and no region having written it.
-/
import proofs.«120969_j54107997995612_1_alg».proof.Proof.Bits.R0Body
import proofs.«120969_j54107997995612_1_alg».proof.Proof.Bits.Region1
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- Core `c`'s buffers at launch. -/
abbrev W0 : Dev nD → Valuation τ sig (Elt F) := fun c b => (s₀ m ρ).mem ((c : Dev nD), b)
/-- After the host stretch (the first region's entry). -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- At the first region's exit, which is the second region's entry: its arrays at what the pipeline leaves (the
    inputs as entered, the output's write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (what the second region's proof data take). -/
abbrev V2 : (c : Dev nD) → (b : Ref sig .tc) → Buf (Elt F) ((c : Thread nD τ).loc b) := fun c b => W2 m ρ c b
/-- At the first region's exit each of its arrays holds what the pipeline leaves and every other buffer what it
    held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit (the end): its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (the end contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## What the host stretch leaves: the reshape writes its own result and nothing else -/

/-- A buffer other than the reshape's result is, after the host stretch, as launched. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- Each argument array enters the first region as launched. -/
theorem V1_main_arg0 (c : Dev nD) : V1 m ρ c main_arg0 = m ((c : Thread nD τ).loc main_arg0) :=
  (W1_of_ne m ρ c main_arg0 (by decide)).trans rfl
theorem V1_main_arg1 (c : Dev nD) : V1 m ρ c main_arg1 = m ((c : Thread nD τ).loc main_arg1) :=
  (W1_of_ne m ρ c main_arg1 (by decide)).trans rfl
theorem V1_main_arg2 (c : Dev nD) : V1 m ρ c main_arg2 = m ((c : Thread nD τ).loc main_arg2) :=
  (W1_of_ne m ρ c main_arg2 (by decide)).trans rfl
theorem V1_main_arg3 (c : Dev nD) : V1 m ρ c main_arg3 = m ((c : Thread nD τ).loc main_arg3) :=
  (W1_of_ne m ρ c main_arg3 (by decide)).trans rfl

/-- The reshape's result enters the first region as the bias vector launched, recast as one row. -/
theorem V1_main_v0 (c : Dev nD) :
    V1 m ρ c main_v0 = shapeCast S1x256 (m ((c : Thread nD τ).loc main_arg3)) shapeCasts_S256_S1x256 := by
  show StableHlo.after hostOps0 _ (Proc.devRef .tc main_v0) = _
  after_results
  rfl

/-- The first region's result array enters the second region at what the first region's write-backs leave. -/
theorem V2_main_v1 (c : Dev nD) : V2 m ρ c main_v1 = (dat0 (V1 m ρ) c).arrAt 4 cfg0.N :=
  W2_arr m ρ c 4

/-! ### The arguments end as launched: the reshape writes none, and a region reads one through an input window
    (whose array the pipeline leaves as entered) or does not touch it -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((dat0 (V1 m ρ) c).arrAt_in 1 rfl _).trans (A_eq0 (V1 m ρ) c 1))
    _ = m ((c : Thread nD τ).loc main_arg0) := V1_main_arg0 m ρ c
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 0).trans (((dat0 (V1 m ρ) c).arrAt_in 0 rfl _).trans (A_eq0 (V1 m ρ) c 0))
    _ = m ((c : Thread nD τ).loc main_arg1) := V1_main_arg1 m ρ c
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = m ((c : Thread nD τ).loc main_arg2) := V1_main_arg2 m ρ c
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := V1_main_arg3 m ρ c

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape allocates no buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents `W3`, the
    generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- THE FIRST REGION over the thread state: entered from every unscoped buffer at `W1`, left at `W2`. Its arrays
    split out of the unscoped buffers and put back at the exit contents; the generator register and the scoped
    buffers into the region's invariant at the first point and out of it at the last (the running sum's contents
    forgotten); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W2`, left at `W3` (what the
    launch reads at the end). Its arrays split out of the unscoped buffers and put back at the exit contents; the
    generator register into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 3 segments in order: the host stretch from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- The program IS the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of the program on
    the TensorCores terminates, nothing faulting, and every final state has the result array at what the second
    region's write-backs leave and each argument array as launched: the last thread state read against the final
    state, the result by `W3_arr`, each argument by its `W3_main_arg` lemma. -/
theorem run_main : θ_run defs (onTc (τ := τ) (main (F := F))) ⟨m, fun _ => 0, ρ⟩ (fun r => ∀ c : Dev nD,
      r.2.mem ((c.tc : Thread nD τ).loc main_v2) = (dat1 (V2 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_arr m ρ c 1),
        (h c _ (mem_uc main_arg0 (by decide))).trans (W3_main_arg0 m ρ c),
        (h c _ (mem_uc main_arg1 (by decide))).trans (W3_main_arg1 m ρ c),
        (h c _ (mem_uc main_arg2 (by decide))).trans (W3_main_arg2 m ρ c),
        (h c _ (mem_uc main_arg3 (by decide))).trans (W3_main_arg3 m ρ c)⟩)

end Cert.Kernel.Hand

end
-- ==== Proof.Ideal.R0Pieces.lean ====
/-
  The first kernel region: what each case of its body leaves, as the body's own arithmetic.

  Every store of the body writes a whole buffer (the unit-stride rectangle at offset zero of the buffer's full
  size), and every load reads a whole buffer. So what a case leaves in a buffer is the payload of the last store
  into it, over the loaded contents: the input blocks as the point found them, the running sum as the point before
  left it, and, where the running sum is read again after a store of the same run, that store's payload.
  Case A (contraction step 0): the running sum is cleared to the zero array, read back, and the block product added.
  Cases B and C (the later steps): the block product is added to the running sum found. Case C (the last step)
  also stores the positive part of the updated running sum into the output buffer.
-/
import proofs.«120969_j54107997995612_1_alg».proof.Proof.Ideal.R0Dat
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 rectangle, however the zeros are spelt. -/
theorem off2_zero : (![0, 0] : Fin 2 → Nat) = fun _ => 0 :=
  funext fun a => by match a with | ⟨0, _⟩ => rfl | ⟨1, _⟩ => rfl

/-- At contraction step 0 the running-sum buffer is first cleared, then read back and updated: the later store
    covers the buffer, and the value it read back is what the clearing store left, the zero array. -/
theorem sout0_A_0_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : cond0_0 i) (hc1 : ¬cond0_1 i)
    (x0 : Vec F S2048x1024 .f32) (x1 : Vec F S1024x256 .f32) (x2 : Vec F S256x256 .f32) (x3 : Vec F S1x256 .f32) :
    sout0_A_0 c i arg2 harg2 arg3 harg3 arg4 harg4 arg5 harg5 arg6 harg6 arg7 harg7 hc0 hc1 x0 x1 x2 x3 = k0_pay2 x1 x2 x3 x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x256) off2_zero, View.readCov_unit_zero (S := S2048x256) _ off2_zero]
  simp only [View.readAt_eq_ld, harg2.read_unread, harg3.read_unread, harg4.read_unread, harg5.read_unread,
    View.ld_unit_zero (S := S2048x1024) off2_zero, View.ld_unit_zero (S := S1024x256) off2_zero,
    View.ld_unit_zero (S := S256x256) off2_zero, View.ld_unit_zero (S := S1x256) off2_zero]

/-- At a middle step the one store into the running-sum buffer covers it; its payload is over the input blocks and
    the running sum as the step found them, each loaded whole. -/
theorem sout0_B_0_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : ¬cond0_1 i)
    (x0 : Vec F S2048x1024 .f32) (x1 : Vec F S1024x256 .f32) (x2 : Vec F S256x256 .f32) (x3 : Vec F S1x256 .f32) (xs0 : Vec F S2048x256 .f32) :
    sout0_B_0 c i arg2 harg2 arg3 harg3 arg4 harg4 arg5 harg5 arg6 harg6 arg7 harg7 hc0 hc1 x0 x1 x2 x3 xs0 = k0_pay2 x1 x2 x3 x0 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S2048x256) off2_zero]
  simp only [View.readAt_eq_ld, harg2.read_unread, harg3.read_unread, harg4.read_unread, harg5.read_unread,
    harg7.read_unread, View.ld_unit_zero (S := S2048x1024) off2_zero, View.ld_unit_zero (S := S1024x256) off2_zero,
    View.ld_unit_zero (S := S256x256) off2_zero, View.ld_unit_zero (S := S1x256) off2_zero,
    View.ld_unit_zero (S := S2048x256) off2_zero]

/-- At the last step the one store into the running-sum buffer covers it, as at a middle step. -/
theorem sout0_C_0_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .f32) (x2 : Vec F S256x256 .f32) (x3 : Vec F S1x256 .f32) (xs0 : Vec F S2048x256 .f32) :
    sout0_C_0 c i arg2 harg2 arg3 harg3 arg4 harg4 arg5 harg5 arg6 harg6 arg7 harg7 hc0 hc1 x0 x1 x2 x3 xs0 = k0_pay2 x1 x2 x3 x0 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S2048x256) off2_zero]
  simp only [View.readAt_eq_ld, harg2.read_unread, harg3.read_unread, harg4.read_unread, harg5.read_unread,
    harg7.read_unread, View.ld_unit_zero (S := S2048x1024) off2_zero, View.ld_unit_zero (S := S1024x256) off2_zero,
    View.ld_unit_zero (S := S256x256) off2_zero, View.ld_unit_zero (S := S1x256) off2_zero,
    View.ld_unit_zero (S := S2048x256) off2_zero]

/-- At the last step the one store into the output buffer covers it; its payload is the positive part of the
    running sum read back after that step's update, which is the update's payload. -/
theorem out0_C_4_eq (c : Dev nD) (i : grid0.Coords) (arg2 : Memref sig .tc .vmem S2048x1024 .f32) (harg2 : arg2.IsWhole) (arg3 : Memref sig .tc .vmem S1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .f32) (harg7 : arg7.IsWhole) (hc0 : ¬cond0_0 i) (hc1 : cond0_1 i)
    (x0 : Vec F S2048x1024 .f32) (x1 : Vec F S1024x256 .f32) (x2 : Vec F S256x256 .f32) (x3 : Vec F S1x256 .f32) (xs0 : Vec F S2048x256 .f32) :
    out0_C_4 c i arg2 harg2 arg3 harg3 arg4 harg4 arg5 harg5 arg6 harg6 arg7 harg7 hc0 hc1 x0 x1 x2 x3 xs0 = k0_pay3 (k0_pay2 x1 x2 x3 x0 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S2048x256) off2_zero]
  simp only [View.readAt_eq_ld, harg2.read_unread, harg3.read_unread, harg4.read_unread, harg5.read_unread,
    harg7.read_unread, View.ld_unit_zero (S := S2048x1024) off2_zero, View.ld_unit_zero (S := S1024x256) off2_zero,
    View.ld_unit_zero (S := S256x256) off2_zero, View.ld_unit_zero (S := S1x256) off2_zero,
    View.ld_unit_zero (S := S2048x256) off2_zero, View.readCov_unit_zero (S := S2048x256) _ off2_zero]

end Cert.KernelIdeal.Hand

end
-- ==== Proof.Payloads.lean ====
/-
  The kernel's four pure payloads READ AT AN INDEX, at the ideal instance: a float is an extended real, a format
  change is the identity, a product into the zero accumulator is the plain sum of products over the contracted
  coordinate, and a maximum is `max`. Each payload at row `p` and column `j` is spelled out over the entries of the
  blocks it is computed from.
-/
import proofs.«120969_j54107997995612_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayVal

open Idealize.ShloMosaic Idealize.ShloMosaic.ValueIdx Cert.KernelIdeal Cert.KernelIdeal.Gen

/-! ## The three products' operand indices, axis by axis -/

/-- On the left operand's axis 0 (not contracted, no batch) the left index is the output row. -/
private theorem lhs_a_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- On the left operand's axis 1, the one contracted axis, the left index is the contraction coordinate. -/
private theorem lhs_a_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- On the right operand's axis 0, the one contracted axis, the right index is the contraction coordinate. -/
private theorem rhs_a_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- On the right operand's axis 1 (not contracted, no batch) the right index is the output column. -/
private theorem rhs_a_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- On the left operand's axis 0 (not contracted, no batch) the left index is the output row. -/
private theorem lhs_b_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
/-- On the left operand's axis 1, the one contracted axis, the left index is the contraction coordinate. -/
private theorem lhs_b_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
/-- On the right operand's axis 0, the one contracted axis, the right index is the contraction coordinate. -/
private theorem rhs_b_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
/-- On the right operand's axis 1 (not contracted, no batch) the right index is the output column. -/
private theorem rhs_b_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- On the left operand's axis 0 (not contracted, no batch) the left index is the output row. -/
private theorem lhs_c_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
/-- On the left operand's axis 1, the one contracted axis, the left index is the contraction coordinate. -/
private theorem lhs_c_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- On the right operand's axis 0, the one contracted axis, the right index is the contraction coordinate. -/
private theorem rhs_c_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- On the right operand's axis 1 (not contracted, no batch) the right index is the output column. -/
private theorem rhs_c_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-! ## Each product read at an index -/

/-- The product into the zero accumulator, read at row `r` and column `c`: the sum over the contracted coordinate of
    the left operand's row entry times the right operand's column entry. -/
private theorem mm_a_apply (A : FVec Ideal S1024x256 .bf16) (B : FVec Ideal S256x256 .bf16) (r : Fin 1024) (c : Fin 256) :
    matmul (F := Ideal) dot_S1024x256_S256x256_S1024x256_1_0_0_1_n_n none A B (constant (F := Ideal) S1024x256 .f32 0x00000000#32) (ix2 r c)
      = ∑ k : Fin 256, A (ix2 r k) * B (ix2 k c) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 r c) ((contrEquiv1 dot_S1024x256_S256x256_S1024x256_1_0_0_1_n_n 256 rfl rfl).symm k) = ix2 r k := funext fun a => Fin.ext (by
    match a with
    | ⟨0, _⟩ => exact lhs_a_0 _ _
    | ⟨1, _⟩ => exact (lhs_a_1 _ _).trans hk)
  have er : dot_S1024x256_S256x256_S1024x256_1_0_0_1_n_n.rhsIdx (ix2 r c) ((contrEquiv1 dot_S1024x256_S256x256_S1024x256_1_0_0_1_n_n 256 rfl rfl).symm k) = ix2 k c := funext fun a => Fin.ext (by
    match a with
    | ⟨0, _⟩ => exact (rhs_a_0 _ _).trans hk
    | ⟨1, _⟩ => exact rhs_a_1 _ _)
  rw [el, er]

/-- The product into the zero accumulator, read at row `r` and column `c`: the sum over the contracted coordinate of
    the left operand's row entry times the right operand's column entry. -/
private theorem mm_b_apply (A : FVec Ideal S2048x1024 .bf16) (B : FVec Ideal S1024x256 .bf16) (r : Fin 2048) (c : Fin 256) :
    matmul (F := Ideal) dot_S2048x1024_S1024x256_S2048x256_1_0_0_1_n_n none A B (constant (F := Ideal) S2048x256 .f32 0x00000000#32) (ix2 r c)
      = ∑ k : Fin 1024, A (ix2 r k) * B (ix2 k c) := by
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 r c) ((contrEquiv1 dot_S2048x1024_S1024x256_S2048x256_1_0_0_1_n_n 1024 rfl rfl).symm k) = ix2 r k := funext fun a => Fin.ext (by
    match a with
    | ⟨0, _⟩ => exact lhs_b_0 _ _
    | ⟨1, _⟩ => exact (lhs_b_1 _ _).trans hk)
  have er : dot_S2048x1024_S1024x256_S2048x256_1_0_0_1_n_n.rhsIdx (ix2 r c) ((contrEquiv1 dot_S2048x1024_S1024x256_S2048x256_1_0_0_1_n_n 1024 rfl rfl).symm k) = ix2 k c := funext fun a => Fin.ext (by
    match a with
    | ⟨0, _⟩ => exact (rhs_b_0 _ _).trans hk
    | ⟨1, _⟩ => exact rhs_b_1 _ _)
  rw [el, er]

/-- The product into the zero accumulator, read at row `r` and column `c`: the sum over the contracted coordinate of
    the left operand's row entry times the right operand's column entry. -/
private theorem mm_c_apply (A : FVec Ideal S1024x256 .bf16) (B : FVec Ideal S256x1024 .bf16) (r : Fin 1024) (c : Fin 1024) :
    matmul (F := Ideal) dot_S1024x256_S256x1024_S1024x1024_1_0_0_1_n_n none A B (constant (F := Ideal) S1024x1024 .f32 0x00000000#32) (ix2 r c)
      = ∑ k : Fin 256, A (ix2 r k) * B (ix2 k c) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r c) ((contrEquiv1 dot_S1024x256_S256x1024_S1024x1024_1_0_0_1_n_n 256 rfl rfl).symm k) = ix2 r k := funext fun a => Fin.ext (by
    match a with
    | ⟨0, _⟩ => exact lhs_c_0 _ _
    | ⟨1, _⟩ => exact (lhs_c_1 _ _).trans hk)
  have er : dot_S1024x256_S256x1024_S1024x1024_1_0_0_1_n_n.rhsIdx (ix2 r c) ((contrEquiv1 dot_S1024x256_S256x1024_S1024x1024_1_0_0_1_n_n 256 rfl rfl).symm k) = ix2 k c := funext fun a => Fin.ext (by
    match a with
    | ⟨0, _⟩ => exact (rhs_c_0 _ _).trans hk
    | ⟨1, _⟩ => exact rhs_c_1 _ _)
  rw [el, er]

/-! ## The payloads read at an index -/

/-- The first payload is the zero splat: every entry is the extended real `0`. -/
theorem pay1_apply (p : Fin 2048) (j : Fin 256) : k0_pay1 (F := Ideal) (ix2 p j) = 0 := by
  unfold k0_pay1
  simp only [shapeCast_self, broadcast_apply]
  exact Ideal.ofBits_zero_f32

/-- The second payload at `(p, j)`: the accumulator's entry plus the product of row `p` of the left block with column
    `j` of the inner value, itself a product's entry plus the bias row's entry (the bias row is repeated down the rows). -/
theorem pay2_apply (v3 : Vec Ideal S1024x256 .f32) (v5 : Vec Ideal S256x256 .f32) (v8 : Vec Ideal S1x256 .f32)
    (v13 : Vec Ideal S2048x1024 .f32) (v15 : Vec Ideal S2048x256 .f32) (p : Fin 2048) (j : Fin 256) :
    k0_pay2 (F := Ideal) v3 v5 v8 v13 v15 (ix2 p j)
      = v15 (ix2 p j) + ∑ r : Fin 1024, v13 (ix2 p r) * ((∑ k : Fin 256, v3 (ix2 r k) * v5 (ix2 k j)) + v8 (ix2 (0 : Fin 1) j)) := by
  unfold k0_pay2
  simp only [shapeCast_self]
  refine (addf_apply _ _ _).trans ?_
  refine congrArg (v15 (ix2 p j) + ·) ?_
  refine (mm_b_apply _ _ p j).trans ?_
  refine Finset.sum_congr rfl fun r _ => ?_
  refine congrArg (v13 (ix2 p r) * ·) ?_
  refine (truncf_apply (ψ := .bf16) _ bitsLt_bf16_f32 _).trans ?_
  refine (addf_apply _ _ _).trans ?_
  rw [mm_a_apply, broadcastTo_1b_ab_apply]
  rfl

/-- The third payload is the entrywise maximum with the zero splat. -/
theorem pay3_apply (v24 : Vec Ideal S2048x256 .f32) (p : Fin 2048) (j : Fin 256) :
    k0_pay3 (F := Ideal) v24 (ix2 p j) = max (v24 (ix2 p j)) 0 := by
  unfold k0_pay3
  simp only [maximumf_apply, broadcast_apply]
  exact congrArg (max (v24 (ix2 p j))) Ideal.ofBits_zero_f32

/-- The outer-product payload at `(p, q)`: row `p` of the first block against row `q` of the second (the second
    block enters transposed, so its column `q` is the block's row `q`). -/
theorem k1pay_apply (v5 v9 : Vec Ideal S1024x256 .f32) (p q : Fin 1024) :
    k1_pay1 (F := Ideal) v5 v9 (ix2 p q) = ∑ k : Fin 256, v5 (ix2 p k) * v9 (ix2 q k) := by
  unfold k1_pay1
  simp only [shapeCast_self]
  refine (mm_c_apply _ _ p q).trans ?_
  refine Finset.sum_congr rfl fun k _ => ?_
  rw [transpose_ix2_apply]
  rfl

end Cert.KernelIdeal.PayVal

end
-- ==== Proof.Spec.lean ====
/-
  The function both programs compute, index by index, on the extended reals.

  With `x` of 8192 rows and 256 columns, `adj` square of side 8192, `w` square of side 256 and `b` a row of 256:
  the affine layer `support r j = (∑ k, x r k · w k j) + b j`; the aggregation `preact p j = ∑ r, adj p r · support r j`;
  its positive part `hidden p j = max (preact p j) 0`; and the Gram matrix of the hidden rows,
  `gram h p q = ∑ k, h p k · h q k`. Every sum is a finite sum in the additive commutative monoid of the extended
  reals, so regrouping a sum into consecutive blocks needs no finiteness of any entry.
  Indices are built from coordinates of literal extents.
-/
import Idealize.ShloMosaic.PureOps.Ideal
import Idealize.ShloMosaic.Lib.ValueIdx

noncomputable section

open scoped BigOperators

namespace Cert.Gcn

open Idealize.ShloMosaic Idealize.ShloMosaic.ValueIdx

/-- Entry `(r, j)` of `x · w + b`, the bias added to every row. -/
def support (x : (⟨2, ![8192, 256]⟩ : Shape).Idx → EReal) (w : (⟨2, ![256, 256]⟩ : Shape).Idx → EReal)
    (b : (⟨1, ![256]⟩ : Shape).Idx → EReal) (r : Fin 8192) (j : Fin 256) : EReal :=
  (∑ k : Fin 256, x (ix2 r k) * w (ix2 k j)) + b (ix1 j)

/-- Entry `(p, j)` of `adj · support`. -/
def preact (adj : (⟨2, ![8192, 8192]⟩ : Shape).Idx → EReal) (x : (⟨2, ![8192, 256]⟩ : Shape).Idx → EReal)
    (w : (⟨2, ![256, 256]⟩ : Shape).Idx → EReal) (b : (⟨1, ![256]⟩ : Shape).Idx → EReal) (p : Fin 8192) (j : Fin 256) : EReal :=
  ∑ r : Fin 8192, adj (ix2 p r) * support x w b r j

/-- Entry `(p, j)` of the hidden layer: the positive part of the aggregation. -/
def hidden (adj : (⟨2, ![8192, 8192]⟩ : Shape).Idx → EReal) (x : (⟨2, ![8192, 256]⟩ : Shape).Idx → EReal)
    (w : (⟨2, ![256, 256]⟩ : Shape).Idx → EReal) (b : (⟨1, ![256]⟩ : Shape).Idx → EReal) (p : Fin 8192) (j : Fin 256) : EReal :=
  max (preact adj x w b p j) 0

/-- The hidden layer as an array of 8192 rows and 256 columns. -/
def hiddenArr (adj : (⟨2, ![8192, 8192]⟩ : Shape).Idx → EReal) (x : (⟨2, ![8192, 256]⟩ : Shape).Idx → EReal)
    (w : (⟨2, ![256, 256]⟩ : Shape).Idx → EReal) (b : (⟨1, ![256]⟩ : Shape).Idx → EReal) :
    (⟨2, ![8192, 256]⟩ : Shape).Idx → EReal :=
  fun i => hidden adj x w b ⟨(i 0).val, (i 0).isLt⟩ ⟨(i 1).val, (i 1).isLt⟩

/-- Entry `(p, q)` of `h · hᵀ`: the inner product of rows `p` and `q` of `h`. -/
def gram (h : (⟨2, ![8192, 256]⟩ : Shape).Idx → EReal) (p q : Fin 8192) : EReal :=
  ∑ k : Fin 256, h (ix2 p k) * h (ix2 q k)

/-- The Gram matrix as a square array of side 8192. -/
def gramArr (h : (⟨2, ![8192, 256]⟩ : Shape).Idx → EReal) : (⟨2, ![8192, 8192]⟩ : Shape).Idx → EReal :=
  fun i => gram h ⟨(i 0).val, (i 0).isLt⟩ ⟨(i 1).val, (i 1).isLt⟩

/-- The whole result: the Gram matrix of the hidden layer. -/
def result (adj : (⟨2, ![8192, 8192]⟩ : Shape).Idx → EReal) (x : (⟨2, ![8192, 256]⟩ : Shape).Idx → EReal)
    (w : (⟨2, ![256, 256]⟩ : Shape).Idx → EReal) (b : (⟨1, ![256]⟩ : Shape).Idx → EReal) :
    (⟨2, ![8192, 8192]⟩ : Shape).Idx → EReal :=
  gramArr (hiddenArr adj x w b)

theorem hiddenArr_ix2 (adj : (⟨2, ![8192, 8192]⟩ : Shape).Idx → EReal) (x : (⟨2, ![8192, 256]⟩ : Shape).Idx → EReal)
    (w : (⟨2, ![256, 256]⟩ : Shape).Idx → EReal) (b : (⟨1, ![256]⟩ : Shape).Idx → EReal) (p : Fin 8192) (j : Fin 256) :
    hiddenArr adj x w b (ix2 p j) = hidden adj x w b p j := rfl

theorem gramArr_ix2 (h : (⟨2, ![8192, 256]⟩ : Shape).Idx → EReal) (p q : Fin 8192) :
    gramArr h (ix2 p q) = gram h p q := rfl

end Cert.Gcn

end
-- ==== Proof.LibBlockSum.lean ====
/-
  Block decompositions of one finite sum over the extended reals.

  A contraction with terms `f 0, f 1, …` is cut into consecutive blocks of width `B`; block `j` is the sum of the terms
  `j·B, …, j·B + B − 1`.  Adding blocks `j₀, …, j₀ + k` left to right — whether the first is STORED and the later ones
  added to it (`accum`: an accumulator kept in an output block that the first grid point overwrites), or all are added
  onto a ZERO start (`accum0`: a scratch accumulator cleared at the first grid point) — gives the contiguous stretch of
  `(k + 1)·B` terms that starts at `j₀·B` (`accum_eq`, `accum0_eq`).  Only commutativity and associativity of addition
  are used (the extended reals are an additive commutative monoid), so no term needs to be finite.
  The terms are indexed by ℕ and summed over `Finset.range`, so that a block is an offset and a zero-padded tail is
  "the terms beyond the extent are zero".  Mathlib imports only.
-/
import Mathlib.Data.EReal.Operations
import Mathlib.Algebra.BigOperators.Intervals

noncomputable section

namespace Cert.Spec

open Finset

variable (f : ℕ → EReal)

/-- Block `j` of width `B` of the contraction: the terms `j·B, …, j·B + B − 1`. -/
def block (B j : ℕ) : EReal := ∑ κ ∈ range B, f (j * B + κ)

/-- Blocks `j₀, j₀+1, …, j₀+k` added up left to right, the first one STORED (not added to anything). -/
def accum (B j₀ : ℕ) : ℕ → EReal
  | 0 => block f B j₀
  | k + 1 => accum B j₀ k + block f B (j₀ + (k + 1))

/-- Blocks `0, …, k` added up left to right onto a zero start. -/
def accum0 (B : ℕ) : ℕ → EReal
  | 0 => 0 + block f B 0
  | k + 1 => accum0 B k + block f B (k + 1)

/-- Consecutive blocks, the first stored, are one contiguous stretch of the contraction. -/
theorem accum_eq (B j₀ k : ℕ) : accum f B j₀ k = ∑ i ∈ range ((k + 1) * B), f (j₀ * B + i) := by
  induction k with
  | zero => simp only [accum, block, Nat.zero_add, Nat.one_mul]
  | succ k ih =>
    show accum f B j₀ k + block f B (j₀ + (k + 1)) = _
    rw [ih, block, show (k + 1 + 1) * B = (k + 1) * B + B by ring, Finset.sum_range_add]
    refine congrArg _ (Finset.sum_congr rfl fun κ _ => congrArg f ?_)
    ring

/-- Consecutive blocks added onto zero are the contraction's first `(k + 1)·B` terms. -/
theorem accum0_eq (B k : ℕ) : accum0 f B k = ∑ i ∈ range ((k + 1) * B), f i := by
  induction k with
  | zero => simp only [accum0, block, zero_add, Nat.zero_mul, Nat.zero_add, Nat.one_mul]
  | succ k ih =>
    show accum0 f B k + block f B (k + 1) = _
    rw [ih, block, show (k + 1 + 1) * B = (k + 1) * B + B by ring, Finset.sum_range_add]

end Cert.Spec

end
-- ==== Proof.Value0.lean ====
/-
  The value of the first kernel region: its output array is the hidden layer `max (adj · (x · w + b)) 0`.

  The region's grid is 4 row blocks by 8 contraction steps; point `t` is row block `t / 8` at step `t % 8`. At a point
  the body is given a block of 2048 rows and 1024 columns of `adj`, the matching 1024 rows of `x`, all of `w` and the
  bias row, and adds to the running sum, at row `p` and column `j`, the 1024 terms
  `adj (P, r) · ((∑ q, x (r, q) · w (q, j)) + b j)` with `P = 2048·(t / 8) + p` and `r = 1024·(t % 8), …`: one block of
  width 1024 of the contraction `∑ r < 8192, adj (P, r) · support (r, j)`. Step 0 adds its block to the cleared buffer
  (`0 + a`), every later step to what the step before left; so after step `k` the running sum is the blocks `0, …, k`
  added left to right onto zero, which is the sum of the contraction's first `(k + 1)·1024` terms (only commutativity
  and associativity of addition are used), and after step 7 it is the whole contraction. That point stores the maximum
  of the running sum and zero into the output block, the only points whose block is written back; the four blocks so
  written tile the output array, so the array ends holding the hidden layer at every index.
-/
import proofs.«120969_j54107997995612_1_alg».proof.Proof.Ideal.R0Dat
import proofs.«120969_j54107997995612_1_alg».proof.Proof.Ideal.R0Pieces
import proofs.«120969_j54107997995612_1_alg».proof.Proof.Payloads
import proofs.«120969_j54107997995612_1_alg».proof.Proof.Spec
import proofs.«120969_j54107997995612_1_alg».proof.Proof.LibBlockSum
import Idealize.ShloMosaic.Lib.Pipeline.Value
import Idealize.ShloMosaic.Lib.ValueIdx

set_option maxRecDepth 16384

noncomputable section

open scoped BigOperators

namespace Cert.KernelIdeal.Val0

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The arrays the region reads and the blocks of them a point is given -/

/-- The adjacency matrix as the region finds it. -/
abbrev adjArr (c : Dev nD) : Vec Ideal S8192x8192 .f32 := V c main_arg1
/-- The feature matrix as the region finds it. -/
abbrev xArr (c : Dev nD) : Vec Ideal S8192x256 .f32 := V c main_arg0
/-- The weight matrix as the region finds it. -/
abbrev wArr (c : Dev nD) : Vec Ideal S256x256 .f32 := V c main_arg2
/-- The bias, one row of 256, as the region finds it. -/
abbrev bArr (c : Dev nD) : Vec Ideal S1x256 .f32 := V c main_v0

/-- The block of the adjacency matrix at point `t`: 2048 rows by 1024 columns. -/
abbrev adjBlk (c : Dev nD) (t : Fin cfg0.N) : Vec Ideal S2048x1024 .f32 := iblk0 V c 0 t
/-- The block of the feature matrix at point `t`: 1024 rows, all 256 columns. -/
abbrev xBlk (c : Dev nD) (t : Fin cfg0.N) : Vec Ideal S1024x256 .f32 := iblk0 V c 1 t
/-- The weight matrix's one block. -/
abbrev wBlk (c : Dev nD) (t : Fin cfg0.N) : Vec Ideal S256x256 .f32 := iblk0 V c 2 t
/-- The bias row's one block. -/
abbrev bBlk (c : Dev nD) (t : Fin cfg0.N) : Vec Ideal S1x256 .f32 := iblk0 V c 3 t

/-- The bias row as a vector of 256 entries. -/
def rowOf (b1 : (⟨2, ![1, 256]⟩ : Shape).Idx → EReal) : (⟨1, ![256]⟩ : Shape).Idx → EReal :=
  fun j => b1 (ix2 (0 : Fin 1) ⟨(j 0).val, (j 0).isLt⟩)

/-- The block indices over the grid: point `t` is row block `t / 8` at contraction step `t % 8`; the adjacency block
    is at `(t / 8, t % 8)`, the feature block at `(t % 8, 0)`, the weights and the bias at `(0, 0)`, the output block at
    `(t / 8, 0)`. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

/-- Entry `(p, r)` of the adjacency block at point `t` is entry `(2048·(t / 8) + p, 1024·(t % 8) + r)` of the matrix. -/
theorem adjBlk_apply (c : Dev nD) (t : Fin cfg0.N) (p : Fin 2048) (r : Fin 1024) (P R : Fin 8192)
    (hP : P.val = 2048 * (t.val / 8) + p.val) (hR : R.val = (t.val % 8) * 1024 + r.val) :
    adjBlk V c t (ix2 p r) = adjArr V c (ix2 P R) := by
  obtain ⟨e0, e1, -⟩ := idx_facts t
  unfold adjBlk iblk0
  rw [View.read_apply]
  show V c main_arg1 _ = V c main_arg1 _
  congr 1
  funext a
  apply Fin.ext
  match a with
  | ⟨0, _⟩ => show win0_0.index t (0 : Fin 2) * 2048 + 1 * p.val = P.val; rw [e0, hP]; omega
  | ⟨1, _⟩ => show win0_0.index t (1 : Fin 2) * 1024 + 1 * r.val = R.val; rw [e1, hR]; omega

/-- Entry `(r, q)` of the feature block at point `t` is entry `(1024·(t % 8) + r, q)` of the matrix. -/
theorem xBlk_apply (c : Dev nD) (t : Fin cfg0.N) (r : Fin 1024) (q : Fin 256) (R : Fin 8192)
    (hR : R.val = (t.val % 8) * 1024 + r.val) :
    xBlk V c t (ix2 r q) = xArr V c (ix2 R q) := by
  obtain ⟨-, -, e2, e3, -⟩ := idx_facts t
  unfold xBlk iblk0
  rw [View.read_apply]
  show V c main_arg0 _ = V c main_arg0 _
  congr 1
  funext a
  apply Fin.ext
  match a with
  | ⟨0, _⟩ => show win0_1.index t (0 : Fin 2) * 1024 + 1 * r.val = R.val; rw [e2, hR]; omega
  | ⟨1, _⟩ => show win0_1.index t (1 : Fin 2) * 256 + 1 * q.val = q.val; rw [e3]; omega

/-- The weights' block is the whole matrix. -/
theorem wBlk_eq (c : Dev nD) (t : Fin cfg0.N) : wBlk V c t = wArr V c := by
  obtain ⟨-, -, -, -, e4, e5, -⟩ := idx_facts t
  funext y
  unfold wBlk iblk0
  rw [View.read_apply]
  show V c main_arg2 _ = V c main_arg2 _
  congr 1
  funext a
  apply Fin.ext
  match a with
  | ⟨0, _⟩ => show win0_2.index t (0 : Fin 2) * 256 + 1 * (y 0).val = (y 0).val; rw [e4]; omega
  | ⟨1, _⟩ => show win0_2.index t (1 : Fin 2) * 256 + 1 * (y 1).val = (y 1).val; rw [e5]; omega

/-- The bias row's block is the whole row. -/
theorem bBlk_eq (c : Dev nD) (t : Fin cfg0.N) : bBlk V c t = bArr V c := by
  obtain ⟨-, -, -, -, -, -, e6, e7, -⟩ := idx_facts t
  funext y
  unfold bBlk iblk0
  rw [View.read_apply]
  show V c main_v0 _ = V c main_v0 _
  congr 1
  funext a
  apply Fin.ext
  match a with
  | ⟨0, _⟩ => show win0_3.index t (0 : Fin 2) * 1 + 1 * (y 0).val = (y 0).val; rw [e6]; omega
  | ⟨1, _⟩ => show win0_3.index t (1 : Fin 2) * 256 + 1 * (y 1).val = (y 1).val; rw [e7]; omega

/-! ## The contraction's terms and one step's block of them -/

/-- Term `r` of the contraction at row `P` and column `j`: `adj (P, r) · support (r, j)`; beyond the extent, zero. -/
def term (adj : (⟨2, ![8192, 8192]⟩ : Shape).Idx → EReal) (x : (⟨2, ![8192, 256]⟩ : Shape).Idx → EReal)
    (w : (⟨2, ![256, 256]⟩ : Shape).Idx → EReal) (b : (⟨1, ![256]⟩ : Shape).Idx → EReal) (P : Fin 8192) (j : Fin 256) (r : ℕ) : EReal :=
  if h : r < 8192 then adj (ix2 P ⟨r, h⟩) * Cert.Gcn.support x w b ⟨r, h⟩ j else 0

/-- The whole contraction is the sum of its 8192 terms. -/
theorem sum_term (adj : (⟨2, ![8192, 8192]⟩ : Shape).Idx → EReal) (x : (⟨2, ![8192, 256]⟩ : Shape).Idx → EReal)
    (w : (⟨2, ![256, 256]⟩ : Shape).Idx → EReal) (b : (⟨1, ![256]⟩ : Shape).Idx → EReal) (P : Fin 8192) (j : Fin 256) :
    ∑ i ∈ Finset.range 8192, term adj x w b P j i = Cert.Gcn.preact adj x w b P j := by
  rw [← Fin.sum_univ_eq_sum_range (fun i => term adj x w b P j i) 8192]
  unfold Cert.Gcn.preact
  refine Finset.sum_congr rfl fun r _ => ?_
  unfold term
  rw [dif_pos r.isLt]

/-- What one contraction step adds at `(p, j)`: row `p` of the adjacency block against column `j` of the block of
    `x · w + b`, which is block `k` of width 1024 of the contraction's terms at the global row. -/
theorem block_step (adj : (⟨2, ![8192, 8192]⟩ : Shape).Idx → EReal) (x : (⟨2, ![8192, 256]⟩ : Shape).Idx → EReal)
    (w : (⟨2, ![256, 256]⟩ : Shape).Idx → EReal) (b1 : (⟨2, ![1, 256]⟩ : Shape).Idx → EReal)
    (x0 : Vec Ideal S2048x1024 .f32) (x1 : Vec Ideal S1024x256 .f32) (x2 : Vec Ideal S256x256 .f32) (x3 : Vec Ideal S1x256 .f32)
    (P : Fin 8192) (p : Fin 2048) (j : Fin 256) (k : ℕ) (hk : k < 8)
    (h0 : ∀ (r : Fin 1024) (R : Fin 8192), R.val = k * 1024 + r.val → x0 (ix2 p r) = adj (ix2 P R))
    (h1 : ∀ (r : Fin 1024) (q : Fin 256) (R : Fin 8192), R.val = k * 1024 + r.val → x1 (ix2 r q) = x (ix2 R q))
    (h2 : x2 = w) (h3 : x3 = b1) :
    (∑ r : Fin 1024, x0 (ix2 p r) * ((∑ q : Fin 256, x1 (ix2 r q) * x2 (ix2 q j)) + x3 (ix2 (0 : Fin 1) j)))
      = Cert.Spec.block (term adj x w (rowOf b1) P j) 1024 k := by
  subst h2 h3
  unfold Cert.Spec.block
  rw [← Fin.sum_univ_eq_sum_range (fun κ => term adj x x2 (rowOf x3) P j (k * 1024 + κ)) 1024]
  refine Finset.sum_congr rfl fun r _ => ?_
  have hlt : k * 1024 + r.val < 8192 := by have := r.isLt; omega
  unfold term
  rw [dif_pos hlt, h0 r ⟨k * 1024 + r.val, hlt⟩ rfl]
  refine congrArg (adj (ix2 P ⟨k * 1024 + r.val, hlt⟩) * ·) ?_
  unfold Cert.Gcn.support
  refine congrArg₂ (· + ·) (Finset.sum_congr rfl fun q _ => ?_) rfl
  rw [h1 r q ⟨k * 1024 + r.val, hlt⟩ rfl]

/-! ## What a point leaves in the running sum and in the output block, as the payloads of its blocks -/

/-- After a step-0 point the running sum is the step's block product added to the cleared buffer. -/
theorem acc_A (c : Dev nD) (t : Fin cfg0.N) (h0 : t.val % 8 = 0) (h1 : ¬t.val % 8 = 7) :
    (outsAt0 V c t.val t.isLt).2
      = k0_pay2 (xBlk V c t) (wBlk V c t) (bBlk V c t) (adjBlk V c t) (k0_pay1 (F := Ideal)) := by
  rw [outsAt0_A V c t h0 h1]
  dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)

/-- After a middle point the running sum is the step's block product added to what the point before left. -/
theorem acc_B (c : Dev nD) (t : Fin cfg0.N) (h0 : ¬t.val % 8 = 0) (h1 : ¬t.val % 8 = 7) :
    (outsAt0 V c t.val t.isLt).2
      = k0_pay2 (xBlk V c t) (wBlk V c t) (bBlk V c t) (adjBlk V c t) (outsAt0 V c (t.val - 1) (Nat.lt_of_le_of_lt (Nat.sub_le _ _) t.isLt)).2 := by
  rw [outsAt0_B V c t h0 h1]
  dsimp only
  exact sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2

/-- After a last-step point the running sum is the step's block product added to what the point before left, -/
theorem acc_C (c : Dev nD) (t : Fin cfg0.N) (h0 : ¬t.val % 8 = 0) (h1 : t.val % 8 = 7) :
    (outsAt0 V c t.val t.isLt).2
      = k0_pay2 (xBlk V c t) (wBlk V c t) (bBlk V c t) (adjBlk V c t) (outsAt0 V c (t.val - 1) (Nat.lt_of_le_of_lt (Nat.sub_le _ _) t.isLt)).2 := by
  rw [outsAt0_C V c t h0 h1]
  dsimp only
  exact sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2

/-- and the output block is the positive part of that running sum. -/
theorem out_C (c : Dev nD) (t : Fin cfg0.N) (h0 : ¬t.val % 8 = 0) (h1 : t.val % 8 = 7) :
    (outsAt0 V c t.val t.isLt).1 = k0_pay3 (F := Ideal) (outsAt0 V c t.val t.isLt).2 := by
  rw [acc_C V c t h0 h1, outsAt0_C V c t h0 h1]
  dsimp only
  exact out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2

/-! ## The running sum, point by point -/

/-- THE RUNNING SUM. After point `n`, at row `p` of the row block and column `j`, the running-sum buffer holds the
    contraction's blocks `0, …, n % 8` of width 1024 at the global row `2048·(n / 8) + p`, added left to right onto
    zero: a step-0 point adds its block to the cleared buffer, every later point adds its block to what the point
    before left (one row block earlier nothing is read: the step-0 point starts afresh). -/
theorem acc_inv (c : Dev nD) : ∀ (n : ℕ) (hn : n < cfg0.N) (p : Fin 2048) (j : Fin 256) (P : Fin 8192),
    P.val = 2048 * (n / 8) + p.val →
    (outsAt0 V c n hn).2 (ix2 p j)
      = Cert.Spec.accum0 (term (adjArr V c) (xArr V c) (wArr V c) (rowOf (bArr V c)) P j) 1024 (n % 8) := by
  intro n
  induction n using Nat.strong_induction_on with
  | _ n ih =>
    intro hn p j P hP
    have hstep : (∑ r : Fin 1024, adjBlk V c ⟨n, hn⟩ (ix2 p r)
          * ((∑ q : Fin 256, xBlk V c ⟨n, hn⟩ (ix2 r q) * wBlk V c ⟨n, hn⟩ (ix2 q j)) + bBlk V c ⟨n, hn⟩ (ix2 (0 : Fin 1) j)))
        = Cert.Spec.block (term (adjArr V c) (xArr V c) (wArr V c) (rowOf (bArr V c)) P j) 1024 (n % 8) :=
      block_step (adjArr V c) (xArr V c) (wArr V c) (bArr V c) (adjBlk V c ⟨n, hn⟩) (xBlk V c ⟨n, hn⟩) (wBlk V c ⟨n, hn⟩)
        (bBlk V c ⟨n, hn⟩) P p j (n % 8) (Nat.mod_lt _ (by decide))
        (fun r R hR => adjBlk_apply V c ⟨n, hn⟩ p r P R hP hR) (fun r q R hR => xBlk_apply V c ⟨n, hn⟩ r q R hR)
        (wBlk_eq V c ⟨n, hn⟩) (bBlk_eq V c ⟨n, hn⟩)
    by_cases h0 : n % 8 = 0
    · have e := acc_A V c ⟨n, hn⟩ h0 (show ¬n % 8 = 7 by omega)
      refine (congrFun e (ix2 p j)).trans ?_
      refine (PayVal.pay2_apply (xBlk V c ⟨n, hn⟩) (wBlk V c ⟨n, hn⟩) (bBlk V c ⟨n, hn⟩) (adjBlk V c ⟨n, hn⟩) _ p j).trans ?_
      refine (congrArg₂ (· + ·) (PayVal.pay1_apply p j) hstep).trans ?_
      rw [h0]
      rfl
    · obtain ⟨k, hk⟩ : ∃ k, n % 8 = k + 1 := ⟨n % 8 - 1, by omega⟩
      have hprev := ih (n - 1) (by omega) (Nat.lt_of_le_of_lt (Nat.sub_le _ _) hn) p j P (by omega)
      rw [show (n - 1) % 8 = k by omega] at hprev
      have e : (outsAt0 V c n hn).2
          = k0_pay2 (xBlk V c ⟨n, hn⟩) (wBlk V c ⟨n, hn⟩) (bBlk V c ⟨n, hn⟩) (adjBlk V c ⟨n, hn⟩)
              (outsAt0 V c (n - 1) (Nat.lt_of_le_of_lt (Nat.sub_le _ _) hn)).2 := by
        by_cases h1 : n % 8 = 7
        · exact acc_C V c ⟨n, hn⟩ h0 h1
        · exact acc_B V c ⟨n, hn⟩ h0 h1
      refine (congrFun e (ix2 p j)).trans ?_
      refine (PayVal.pay2_apply (xBlk V c ⟨n, hn⟩) (wBlk V c ⟨n, hn⟩) (bBlk V c ⟨n, hn⟩) (adjBlk V c ⟨n, hn⟩) _ p j).trans ?_
      refine (congrArg₂ (· + ·) hprev hstep).trans ?_
      rw [hk]
      rfl

/-- THE OUTPUT BLOCK. After a last-step point `t`, at row `p` and column `j`, the output buffer holds the hidden
    layer's entry at the global row: the eight blocks are the whole contraction, and the stored value is its positive part. -/
theorem out_inv (c : Dev nD) (t : Fin cfg0.N) (h7 : t.val % 8 = 7) (p : Fin 2048) (j : Fin 256) (P : Fin 8192)
    (hP : P.val = 2048 * (t.val / 8) + p.val) :
    (outsAt0 V c t.val t.isLt).1 (ix2 p j)
      = Cert.Gcn.hidden (adjArr V c) (xArr V c) (wArr V c) (rowOf (bArr V c)) P j := by
  rw [out_C V c t (by omega) h7]
  refine (PayVal.pay3_apply _ p j).trans ?_
  rw [acc_inv V c t.val t.isLt p j P hP, h7, Cert.Spec.accum0_eq]
  show max (∑ i ∈ Finset.range 8192, term (adjArr V c) (xArr V c) (wArr V c) (rowOf (bArr V c)) P j i) 0 = _
  rw [sum_term]
  rfl

/-! ## From the output blocks to the output array -/

/-- The hidden layer of the arrays the region finds: what its output array ends holding. -/
abbrev hidArr (c : Dev nD) : (⟨2, ![8192, 256]⟩ : Shape).Idx → EReal :=
  Cert.Gcn.hiddenArr (adjArr V c) (xArr V c) (wArr V c) (rowOf (bArr V c))

/-- WHAT A LAST-STEP POINT WRITES BACK is its block — rows `2048·(t / 8), …`, all columns — of the hidden layer. -/
theorem flushed_eq (c : Dev nD) (t : Fin cfg0.N) (hf : (cfg0.win 4).flush t = true) :
    (dat0 (F := Ideal) V c).flushed 4 t = ((cfg0.win 4).blk t).view.read (Elt Ideal) (hidArr V c) := by
  have h7 : t.val % 8 = 7 := (flush0_4 t).mp hf
  have hN : cfg0.N = 32 := N_0
  have ht : t.val < cfg0.N := t.isLt
  obtain ⟨-, -, -, -, -, -, -, -, e8, e9⟩ := idx_facts t
  show (cfg0.win 4).cut (grid0.coords t) ((dat0 (F := Ideal) V c).after 4 t) = _
  rw [after0_4]
  funext y
  have hy0 : (y 0).val < 2048 := (y 0).isLt
  have hy1 : (y 1).val < 256 := (y 1).isLt
  rw [View.read_apply]
  have ex : (cfg0.win 4).xinj (grid0.coords t) y = ix2 (⟨(y 0).val, hy0⟩ : Fin 2048) (⟨(y 1).val, hy1⟩ : Fin 256) :=
    funext fun a => by match a with | ⟨0, _⟩ => rfl | ⟨1, _⟩ => rfl
  have em : (((cfg0.win 4).blk t).view.emb y : (⟨2, ![8192, 256]⟩ : Shape).Idx)
      = ix2 (⟨2048 * (t.val / 8) + (y 0).val, by omega⟩ : Fin 8192) (⟨(y 1).val, hy1⟩ : Fin 256) :=
    funext fun a => Fin.ext (by
      match a with
      | ⟨0, _⟩ => show win0_4.index t (0 : Fin 2) * 2048 + 1 * (y 0).val = 2048 * (t.val / 8) + (y 0).val; rw [e8]; omega
      | ⟨1, _⟩ => show win0_4.index t (1 : Fin 2) * 256 + 1 * (y 1).val = (y 1).val; rw [e9]; omega)
  show (outsAt0 V c t.val t.isLt).1 ((cfg0.win 4).xinj (grid0.coords t) y) = hidArr V c (((cfg0.win 4).blk t).view.emb y)
  rw [ex, em]
  exact (out_inv V c t h7 ⟨(y 0).val, hy0⟩ ⟨(y 1).val, hy1⟩ ⟨2048 * (t.val / 8) + (y 0).val, by omega⟩ rfl).trans
    (Cert.Gcn.hiddenArr_ix2 (adjArr V c) (xArr V c) (wArr V c) (rowOf (bArr V c)) _ _).symm

/-- An index of the output array is in point `t`'s block iff each coordinate is in the block's range on its axis. -/
theorem mem_blk (t : Fin cfg0.N) (i : (⟨2, ![8192, 256]⟩ : Shape).Idx) :
    i ∈ ((cfg0.win 4).blk t).view.set
      ↔ ∀ a : Fin 2, win0_4.index t a * S2048x256.size a ≤ (i a).val ∧ (i a).val < win0_4.index t a * S2048x256.size a + S2048x256.size a := by
  show i ∈ ((View.whole main_v1).slice (win0_4.rect t)).set ↔ _
  rw [View.set_slice_whole, Rect.mem_set_unit]
  exact Iff.rfl

/-- Every index of the output array is in the block of a point that writes back: row `P` is in row block `P / 2048`,
    whose last-step point is `8·(P / 2048) + 7`. -/
theorem cover (i : (⟨2, ![8192, 256]⟩ : Shape).Idx) :
    ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 32 := N_0
  obtain ⟨t, ht⟩ : ∃ t : Fin cfg0.N, t.val = 8 * ((i 0).val / 2048) + 7 := ⟨⟨8 * ((i 0).val / 2048) + 7, by omega⟩, rfl⟩
  obtain ⟨-, -, -, -, -, -, -, -, e8, e9⟩ := idx_facts t
  refine ⟨t, (flush0_4 t).mpr (by omega), ?_⟩
  rw [mem_blk]
  intro a
  match a with
  | ⟨0, _⟩ =>
    show win0_4.index t (0 : Fin 2) * 2048 ≤ (i 0).val ∧ (i 0).val < win0_4.index t (0 : Fin 2) * 2048 + 2048
    rw [e8]; omega
  | ⟨1, _⟩ =>
    show win0_4.index t (1 : Fin 2) * 256 ≤ (i 1).val ∧ (i 1).val < win0_4.index t (1 : Fin 2) * 256 + 256
    rw [e9]; omega

/-- THE OUTPUT ARRAY after the region: the hidden layer `max (adj · (x · w + b)) 0` of the arrays the region finds. -/
theorem final0 (c : Dev nD) :
    (dat0 (F := Ideal) V c).arrAt 4 cfg0.N
      = Cert.Gcn.hiddenArr (V c main_arg1) (V c main_arg0) (V c main_arg2) (rowOf (V c main_v0)) :=
  (dat0 (F := Ideal) V c).arrAt_eq_of_cover 4 (hidArr V c) (flushed_eq V c) cover

end Cert.KernelIdeal.Val0

end
-- ==== Proof.Value1.lean ====
/-
  The second kernel region's VALUE: the square array it leaves is the Gram matrix of the rows of the array it reads.

  The region runs over an 8 x 8 grid; the point `t = (I, J)` with `I = t / 8` and `J = t % 8` reads the row slabs
  `1024 I ..` and `1024 J ..` of the whole 8192 x 256 input `h`, and writes back the 1024 x 1024 block `(I, J)` of the
  output, whose entry `(p, q)` is `∑ k, h (1024 I + p) k · h (1024 J + q) k`: entry `(1024 I + p, 1024 J + q)` of `h · hᵀ`.
  The 64 blocks tile the output, so the whole output is the Gram matrix.
-/
import proofs.«120969_j54107997995612_1_alg».proof.Proof.Ideal.Region1
import proofs.«120969_j54107997995612_1_alg».proof.Proof.Payloads
import proofs.«120969_j54107997995612_1_alg».proof.Proof.Spec
import Idealize.ShloMosaic.Lib.Pipeline.Value
import Idealize.ShloMosaic.Lib.ValueIdx
import Idealize.ShloMosaic.Lib.Pipeline.FrameBody

noncomputable section

open scoped BigOperators

namespace Cert.KernelIdeal.Val1

open Cert.KernelIdeal Cert.KernelIdeal.Gen Cert.KernelIdeal.Hand Cert.KernelIdeal.PayVal
open Idealize.ShloMosaic Idealize.ShloMosaic.TcCoe Idealize.SL.Sem Idealize.ShloMosaic.ValueIdx
open Idealize.ShloMosaic.Pipeline (Dat)

/-! ## The grid: block indices and slab offsets at a point -/

/-- Both offsets of a whole-buffer store are zero. -/
private theorem zero_offsets : (![0, 0] : Fin 2 → Nat) = fun _ => 0 := funext fun a => by fin_cases a <;> rfl

/-- At the point `t = 8 I + J`: the output's block index is `(I, J)`, the first slab starts at row `1024 I`, the
    second at row `1024 J`, both at column `0`, and the input's one block has index `(0, 0)`. -/
private theorem grid_facts : ∀ t : Fin cfg1.N,
    win1_1.index t (0 : Fin 2) = t.val / 8 ∧ win1_1.index t (1 : Fin 2) = t.val % 8
    ∧ k1_off1 (grid1.coords t) 0 = 1024 * (t.val / 8) ∧ k1_off1 (grid1.coords t) 1 = 0
    ∧ k1_off2 (grid1.coords t) 0 = 1024 * (t.val % 8) ∧ k1_off2 (grid1.coords t) 1 = 0
    ∧ win1_0.index t (0 : Fin 2) = 0 ∧ win1_0.index t (1 : Fin 2) = 0 :=
  (by decide +kernel : ∀ t : Fin grid1.N, _)

/-! ## The two slabs read at an index -/

/-- Entry `(p, k)` of the first slab is the input's entry at row `offset + p`, column `k`. -/
private theorem slab_a_apply (x0 : Vec Ideal S8192x256 .f32) (i : grid1.Coords) (p : Fin 1024) (k : Fin 256) (R : Fin 8192)
    (hR : R.val = k1_off1 i 0 + p.val) (h1 : k1_off1 i 1 = 0) :
    View.ld x0 (r1_a i) (ix2 p k) = x0 (ix2 R k) := by
  show x0 ((r1_a i).idx (ix2 p k)) = x0 (ix2 R k)
  refine congrArg x0 (funext fun a => Fin.ext ?_)
  match a with
  | ⟨0, _⟩ => show k1_off1 i 0 + 1 * p.val = R.val; omega
  | ⟨1, _⟩ => show k1_off1 i 1 + 1 * k.val = k.val; omega

/-- Entry `(q, k)` of the second slab is the input's entry at row `offset + q`, column `k`. -/
private theorem slab_b_apply (x0 : Vec Ideal S8192x256 .f32) (i : grid1.Coords) (q : Fin 1024) (k : Fin 256) (R : Fin 8192)
    (hR : R.val = k1_off2 i 0 + q.val) (h1 : k1_off2 i 1 = 0) :
    View.ld x0 (r1_b i) (ix2 q k) = x0 (ix2 R k) := by
  show x0 ((r1_b i).idx (ix2 q k)) = x0 (ix2 R k)
  refine congrArg x0 (funext fun a => Fin.ext ?_)
  match a with
  | ⟨0, _⟩ => show k1_off2 i 0 + 1 * q.val = R.val; omega
  | ⟨1, _⟩ => show k1_off2 i 1 + 1 * k.val = k.val; omega

/-! ## One entry of a point's block -/

/-- Entry `(p, q)` of what the point whose slabs start at rows `1024 I` and `1024 J` stores is the Gram matrix's entry
    at `(1024 I + p, 1024 J + q)`. -/
private theorem block_entry (x0 : Vec Ideal S8192x256 .f32) (i : grid1.Coords) (I J : Nat)
    (ha0 : k1_off1 i 0 = 1024 * I) (ha1 : k1_off1 i 1 = 0) (hb0 : k1_off2 i 0 = 1024 * J) (hb1 : k1_off2 i 1 = 0)
    (p q : Fin 1024) (K : S8192x8192.Idx) (hK0 : (K 0).val = 1024 * I + p.val) (hK1 : (K 1).val = 1024 * J + q.val) :
    k1_pay1 (F := Ideal) (View.ld x0 (r1_a i)) (View.ld x0 (r1_b i)) (ix2 p q) = Cert.Gcn.gramArr x0 K := by
  refine (k1pay_apply _ _ p q).trans ?_
  show _ = Cert.Gcn.gram x0 ⟨(K 0).val, (K 0).isLt⟩ ⟨(K 1).val, (K 1).isLt⟩
  unfold Cert.Gcn.gram
  refine Finset.sum_congr rfl fun k _ => ?_
  rw [slab_a_apply x0 i p k ⟨(K 0).val, (K 0).isLt⟩ (by show (K 0).val = _; omega) ha1,
    slab_b_apply x0 i q k ⟨(K 1).val, (K 1).isLt⟩ (by show (K 1).val = _; omega) hb1]

/-! ## The point's write-back is a block of the Gram matrix -/

section
variable (V : (c : Dev nD) → (b : Ref sig .tc) → Buf (Elt Ideal) ((c : Thread nD τ).loc b))

/-- The input window's one block, of index `(0, 0)` and of the array's own extents, is the whole array. -/
private theorem iblk_whole (c : Dev nD) (t : Fin cfg1.N) (x : S8192x256.Idx) :
    (iblk1 (F := Ideal) V c 0 t : Vec Ideal S8192x256 .f32) x = (V c main_v1 : S8192x256.Idx → Elt Ideal .f32) x := by
  obtain ⟨-, -, -, -, -, -, e0, e1⟩ := grid_facts t
  unfold iblk1
  rw [View.read_apply]
  show V c main_v1 (((cfg1.win 0).blk t).view.emb x) = V c main_v1 x
  refine congrArg (V c main_v1) (funext fun a => Fin.ext ?_)
  match a with
  | ⟨0, _⟩ => show win1_0.index t (0 : Fin 2) * 8192 + 1 * (x 0).val = (x 0).val; rw [e0]; omega
  | ⟨1, _⟩ => show win1_0.index t (1 : Fin 2) * 256 + 1 * (x 1).val = (x 1).val; rw [e1]; omega

/-- What the point `t` writes back is block `t` of the Gram matrix of the input array. -/
private theorem flushed_eq (c : Dev nD) (t : Fin cfg1.N) :
    (dat1 (F := Ideal) V c).flushed 1 t = ((cfg1.win 1).blk t).view.read (Elt Ideal) (Cert.Gcn.gramArr (V c main_v1)) := by
  show (cfg1.win 1).cut (grid1.coords t) ((dat1 (F := Ideal) V c).after 1 t) = _
  rw [after1_1]
  unfold out1_1
  rw [View.canon_unit_zero zero_offsets]
  rw [show (iblk1 (F := Ideal) V c 0 t : Vec Ideal S8192x256 .f32) = (V c main_v1 : S8192x256.Idx → Elt Ideal .f32) from funext (iblk_whole V c t)]
  obtain ⟨e0, e1, ea0, ea1, eb0, eb1, -, -⟩ := grid_facts t
  funext j
  have hj0 : (j 0).val < 1024 := (j 0).isLt
  have hj1 : (j 1).val < 1024 := (j 1).isLt
  show k1_pay1 (F := Ideal) (View.ld _ (r1_a (grid1.coords t))) (View.ld _ (r1_b (grid1.coords t))) (ix2 (⟨(j 0).val, hj0⟩ : Fin 1024) (⟨(j 1).val, hj1⟩ : Fin 1024))
    = Cert.Gcn.gramArr (V c main_v1) (((cfg1.win 1).blk t).view.emb j)
  refine block_entry _ (grid1.coords t) (t.val / 8) (t.val % 8) ea0 ea1 eb0 eb1 _ _ _ ?_ ?_
  · show win1_1.index t (0 : Fin 2) * 1024 + 1 * (j 0).val = 1024 * (t.val / 8) + (j 0).val
    rw [e0]; omega
  · show win1_1.index t (1 : Fin 2) * 1024 + 1 * (j 1).val = 1024 * (t.val % 8) + (j 1).val
    rw [e1]; omega

/-! ## The blocks tile the output -/

/-- An index of the output is in the point `t`'s block iff each coordinate is in the block's range on its axis. -/
private theorem mem_blk (t : Fin cfg1.N) (i : S8192x8192.Idx) :
    i ∈ ((cfg1.win 1).blk t).view.set ↔ ∀ a : Fin 2, win1_1.index t a * S1024x1024.size a ≤ (i a).val ∧ (i a).val < win1_1.index t a * S1024x1024.size a + S1024x1024.size a := by
  show i ∈ ((View.whole main_v2).slice (win1_1.rect t)).set ↔ _
  rw [View.set_slice_whole, Rect.mem_set_unit]
  exact Iff.rfl

/-- Every index `(P, Q)` of the output is in the block of the point `8 (P / 1024) + Q / 1024`, which writes back. -/
private theorem cover (i : S8192x8192.Idx) :
    ∃ t : Fin cfg1.N, (cfg1.win 1).flush t = true ∧ i ∈ ((cfg1.win 1).blk t).view.set := by
  have hi0 : (i 0).val < 8192 := (i 0).isLt
  have hi1 : (i 1).val < 8192 := (i 1).isLt
  have hN : cfg1.N = 64 := N_1
  let t : Fin cfg1.N := ⟨8 * ((i 0).val / 1024) + (i 1).val / 1024, by rw [hN]; omega⟩
  have ht : t.val = 8 * ((i 0).val / 1024) + (i 1).val / 1024 := rfl
  obtain ⟨e0, e1, -, -, -, -, -, -⟩ := grid_facts t
  refine ⟨t, flush1_1 t, ?_⟩
  rw [mem_blk]
  intro a
  match a with
  | ⟨0, _⟩ =>
    show win1_1.index t (0 : Fin 2) * 1024 ≤ (i 0).val ∧ (i 0).val < win1_1.index t (0 : Fin 2) * 1024 + 1024
    rw [e0, ht]; omega
  | ⟨1, _⟩ =>
    show win1_1.index t (1 : Fin 2) * 1024 ≤ (i 1).val ∧ (i 1).val < win1_1.index t (1 : Fin 2) * 1024 + 1024
    rw [e1, ht]; omega

/-! ## The whole output -/

/-- After the region the output array is the Gram matrix of the input array's rows. -/
theorem final1 (c : Dev nD) :
    (dat1 (F := Ideal) V c).arrAt 1 cfg1.N = Cert.Gcn.gramArr (V c main_v1) :=
  (dat1 (F := Ideal) V c).arrAt_eq_of_cover 1 (Cert.Gcn.gramArr (V c main_v1)) (fun t _ => flushed_eq V c t) cover

end

end Cert.KernelIdeal.Val1

end
-- ==== Proof.Bridge.lean ====
/-
  The idealized kernel's result array, as the specification's function of the four argument arrays.

  After the run the result array holds what the second region's write-backs leave; that is the Gram matrix of the
  array the second region finds in the hidden-layer buffer; the first region left there the positive part of
  `adj · (x · w + b)`, read off the argument arrays as the first region finds them, which no host operation has
  touched — the bias reaching the kernel as a one-row matrix that is the bias vector re-laid, entry for entry.
-/
import proofs.«120969_j54107997995612_1_alg».proof.Proof.Ideal.Run
import proofs.«120969_j54107997995612_1_alg».proof.Proof.Value0
import proofs.«120969_j54107997995612_1_alg».proof.Proof.Value1
import proofs.«120969_j54107997995612_1_alg».proof.Proof.Spec
import Idealize.ShloMosaic.Lib.ValueLayout
import Idealize.ShloMosaic.Lib.ValueIdx

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Hand

/-- A vector of 256 entries re-laid as a one-row matrix and read back as a vector is the vector. -/
theorem rowOf_reshape (b : (⟨1, ![256]⟩ : Shape).Idx → EReal) (h : (⟨1, ![256]⟩ : Shape).ShapeCasts ⟨2, ![1, 256]⟩) :
    Cert.KernelIdeal.Val0.rowOf (shapeCast ⟨2, ![1, 256]⟩ b h) = b := by
  funext j
  obtain ⟨a, rfl⟩ : ∃ a : Fin 256, j = ix1 a := ⟨j 0, eq_ix1 j⟩
  exact shapeCast_a_1a_apply b h 0 a

/-- What the result array holds after the run is the Gram matrix of the hidden layer of the launch's arguments. -/
theorem kernel_value (m : (ℓ : Loc nD τ sig) → Buf (Elt Ideal) ℓ) (ρ : Dev nD → PrngReg) (c : Dev nD) :
    (dat1 (F := Ideal) (V2 m ρ) c).arrAt 1 cfg1.N
      = Cert.Gcn.result (m ((c : Thread nD τ).loc main_arg1)) (m ((c : Thread nD τ).loc main_arg0))
          (m ((c : Thread nD τ).loc main_arg2)) (m ((c : Thread nD τ).loc main_arg3)) := by
  rw [Cert.KernelIdeal.Val1.final1, V2_main_v1, Cert.KernelIdeal.Val0.final0, V1_main_arg0, V1_main_arg1, V1_main_arg2,
    V1_main_v0, rowOf_reshape]
  rfl

end Cert.KernelIdeal.Bridge

end
-- ==== Proof.RefSpec.lean ====
/-
  The reference program computes the specification function, at the ideal instance.

  Stage by stage, at an index written from its coordinates: the first product with the bias added is the affine
  layer `support`; the product with the adjacency matrix is the aggregation `preact`; its maximum with the zero
  array is the positive part `hidden`; the product of the hidden array with its transpose is the Gram matrix.
  Each contraction reads its operands at indices whose coordinates are those of the result index and the summation
  index, so each index function, at an index built from coordinates, is again an index built from coordinates.
-/
import proofs.«120969_j54107997995612_1_alg».proof.Proof.Gen.ReferenceIdeal.Read
import proofs.«120969_j54107997995612_1_alg».proof.Proof.Spec
import Idealize.ShloMosaic.Lib.ValueIdx
import Idealize.ShloMosaic.PureOps.Ideal.Laws

noncomputable section

open scoped BigOperators

namespace Cert.RefSpec

open Cert.ReferenceIdeal Cert.ReferenceIdeal.Read Idealize.ShloMosaic Idealize.ShloMosaic.ValueIdx

/-! ## The index functions at an index built from coordinates -/

/-- The first product reads its left operand at row `r`, column `k`. -/
theorem lidx_v0_ix2 (r : Fin 8192) (j k : Fin 256) : lidx_main_v0 (ix2 r j) k = ix2 r k :=
  funext fun a => Fin.ext (by match a with | ⟨0, _⟩ => rfl | ⟨1, _⟩ => rfl)

/-- The first product reads its right operand at row `k`, column `j`. -/
theorem ridx_v0_ix2 (r : Fin 8192) (j k : Fin 256) : ridx_main_v0 (ix2 r j) k = ix2 k j :=
  funext fun a => Fin.ext (by match a with | ⟨0, _⟩ => rfl | ⟨1, _⟩ => rfl)

/-- The two broadcasts of the bias read it at the column. -/
theorem idx_v1_v2_ix2 (r : Fin 8192) (j : Fin 256) : idx_main_v1 (idx_main_v2 (ix2 r j)) = ix1 j :=
  funext fun a => Fin.ext (by match a with | ⟨0, _⟩ => rfl)

/-- The second product reads the adjacency matrix at row `p`, column `r`. -/
theorem lidx_v4_ix2 (p : Fin 8192) (j : Fin 256) (r : Fin 8192) : lidx_main_v4 (ix2 p j) r = ix2 p r :=
  funext fun a => Fin.ext (by match a with | ⟨0, _⟩ => rfl | ⟨1, _⟩ => rfl)

/-- The second product reads the affine layer at row `r`, column `j`. -/
theorem ridx_v4_ix2 (p : Fin 8192) (j : Fin 256) (r : Fin 8192) : ridx_main_v4 (ix2 p j) r = ix2 r j :=
  funext fun a => Fin.ext (by match a with | ⟨0, _⟩ => rfl | ⟨1, _⟩ => rfl)

/-- The last product reads the hidden array at row `p`, column `k`. -/
theorem lidx_v7_ix2 (p q : Fin 8192) (k : Fin 256) : lidx_main_v7 (ix2 p q) k = ix2 p k :=
  funext fun a => Fin.ext (by match a with | ⟨0, _⟩ => rfl | ⟨1, _⟩ => rfl)

/-- The last product reads the transposed hidden array at row `k`, column `q`, which the transpose reads at
    row `q`, column `k` of the hidden array. -/
theorem idx_v6_ridx_v7_ix2 (p q : Fin 8192) (k : Fin 256) : idx_main_v6 (ridx_main_v7 (ix2 p q) k) = ix2 q k :=
  funext fun a => Fin.ext (by match a with | ⟨0, _⟩ => rfl | ⟨1, _⟩ => rfl)

/-! ## The stages -/

variable (x0 : (⟨S8192x256, .f32⟩ : BufTy).Contents (Elt Ideal)) (x1 : (⟨S8192x8192, .f32⟩ : BufTy).Contents (Elt Ideal))
  (x2 : (⟨S256x256, .f32⟩ : BufTy).Contents (Elt Ideal)) (x3 : (⟨S256, .f32⟩ : BufTy).Contents (Elt Ideal))

/-- The broadcast bias at `(r, j)` is the bias at `j`. -/
theorem bias_eq (r : Fin 8192) (j : Fin 256) : val_main_v2 (F := Ideal) x3 (ix2 r j) = x3 (ix1 j) := by
  rw [val_main_v2_apply, val_main_v1_apply, idx_v1_v2_ix2]

/-- The first product at `(r, j)` is the sum over `k` of `x r k · w k j`. -/
theorem prod0_eq (r : Fin 8192) (j : Fin 256) :
    val_main_v0 (F := Ideal) x0 x2 (ix2 r j) = ∑ k : Fin 256, x0 (ix2 r k) * x2 (ix2 k j) := by
  rw [val_main_v0_apply]
  refine Finset.sum_congr rfl fun k _ => ?_
  rw [lidx_v0_ix2, ridx_v0_ix2]

/-- The sum of the first product and the broadcast bias is the affine layer. -/
theorem support_eq (r : Fin 8192) (j : Fin 256) :
    val_main_v3 (F := Ideal) x0 x2 x3 (ix2 r j) = Cert.Gcn.support x0 x2 x3 r j := by
  rw [val_main_v3_apply, prod0_eq, bias_eq, Ideal.addf_def]
  rfl

/-- The product of the adjacency matrix with the affine layer is the aggregation. -/
theorem preact_eq (p : Fin 8192) (j : Fin 256) :
    val_main_v4 (F := Ideal) x0 x1 x2 x3 (ix2 p j) = Cert.Gcn.preact x1 x0 x2 x3 p j := by
  rw [val_main_v4_apply]
  unfold Cert.Gcn.preact
  refine Finset.sum_congr rfl fun r _ => ?_
  rw [lidx_v4_ix2, ridx_v4_ix2, support_eq]

/-- The zero array reads zero everywhere. -/
theorem zero_eq (i : S8192x256.Idx) : val_main_call0_v0 (F := Ideal) i = (0 : EReal) := by
  rw [val_main_call0_v0_apply, val_main_call0_cst_apply]
  exact Ideal.ofBits_zero_f32

/-- The maximum of the aggregation with zero is the hidden layer. -/
theorem hidden_eq (p : Fin 8192) (j : Fin 256) :
    val_main_v5 (F := Ideal) x0 x1 x2 x3 (ix2 p j) = Cert.Gcn.hidden x1 x0 x2 x3 p j := by
  rw [val_main_v5_apply, preact_eq, zero_eq, Ideal.maximumf_def]
  rfl

/-- The product of the hidden array with its transpose is the Gram matrix of the hidden rows. -/
theorem gram_eq (p q : Fin 8192) :
    val_main_v7 (F := Ideal) x0 x1 x2 x3 (ix2 p q) = Cert.Gcn.gram (Cert.Gcn.hiddenArr x1 x0 x2 x3) p q := by
  rw [val_main_v7_apply]
  unfold Cert.Gcn.gram
  refine Finset.sum_congr rfl fun k _ => ?_
  rw [val_main_v6_apply, lidx_v7_ix2, idx_v6_ridx_v7_ix2, hidden_eq, hidden_eq, Cert.Gcn.hiddenArr_ix2,
    Cert.Gcn.hiddenArr_ix2]

/-- The reference's result is the specification function. -/
theorem ref_is_result (x0 : (⟨S8192x256, .f32⟩ : BufTy).Contents (Elt Ideal)) (x1 : (⟨S8192x8192, .f32⟩ : BufTy).Contents (Elt Ideal))
    (x2 : (⟨S256x256, .f32⟩ : BufTy).Contents (Elt Ideal)) (x3 : (⟨S256, .f32⟩ : BufTy).Contents (Elt Ideal)) :
    Cert.ReferenceIdeal.Read.val_main_v7 (F := Ideal) x0 x1 x2 x3 = Cert.Gcn.result x1 x0 x2 x3 := by
  funext i
  obtain ⟨p, q, rfl⟩ : ∃ (p : Fin 8192) (q : Fin 8192), i = ix2 p q := ⟨i 0, i 1, eq_ix2 i⟩
  rw [gram_eq]
  unfold Cert.Gcn.result
  rw [Cert.Gcn.gramArr_ix2]

end Cert.RefSpec

end
-- ==== Proof.lean ====
/-
  The certificate of the graph-convolution kernel against its reference, over the extended reals.

  Both programs compute `h · hᵀ` for `h = max (adj · (x · w + b), 0)`. The kernel does it in two regions: the first
  walks a grid of 4 row blocks by 8 contraction blocks, keeping for each row block a running sum of the block products
  `adj_block · (x_block · w + b)` — cleared at the first contraction step, stored as its positive part at the last —;
  the second forms each 1024 by 1024 tile of the Gram matrix from two row slabs of `h`. The reference applies three
  whole matrix products. At the ideal instance a change of float format is the identity and a matrix product into a zero
  accumulator is the plain sum of products, so the two sides differ only in how one finite sum is grouped into
  consecutive blocks — associativity and commutativity of addition on the extended reals; no entry needs to be finite,
  and the precondition is never opened.

  The three frames: each kernel program's run is the two regions' runs in sequence over the buffer contents at the
  segment boundaries (the word-level program's from the same text as the idealized one's); the reference's is its run
  of host operations. The idealization rewrote no operation, so there is nothing to preserve. The algebraic claim
  pairs the kernel's run, whose result array is read off the two regions' proof data as the specification's function
  of the arguments, with the reference's run, whose composed term is the same function.
-/
import proofs.«120969_j54107997995612_1_alg».proof.Defs
import proofs.«120969_j54107997995612_1_alg».proof.Proof.Gen.Kernel
import proofs.«120969_j54107997995612_1_alg».proof.Proof.Gen.KernelIdeal
import proofs.«120969_j54107997995612_1_alg».proof.Proof.Gen.ReferenceIdeal
import proofs.«120969_j54107997995612_1_alg».proof.Proof.Gen.Pre_finite_inputs
import proofs.«120969_j54107997995612_1_alg».proof.Proof.Gen.ReferenceIdeal.Run
import proofs.«120969_j54107997995612_1_alg».proof.Proof.Gen.ReferenceIdeal.Read
import proofs.«120969_j54107997995612_1_alg».proof.Proof.Ideal.Run
import proofs.«120969_j54107997995612_1_alg».proof.Proof.Bits.Run
import proofs.«120969_j54107997995612_1_alg».proof.Proof.Bridge
import proofs.«120969_j54107997995612_1_alg».proof.Proof.RefSpec
import Idealize.ShloMosaic.Adequacy
import Idealize.ShloMosaic.Init

noncomputable section

namespace Cert.Proof

open Idealize.ShloMosaic Idealize.SL.Sem

/-- The word-level kernel runs to the end with its arguments unchanged: its two regions' run, the result dropped. -/
theorem frame_kernel : Cert.frame_Kernel := fun m ρ _ =>
  (θ_run Cert.Kernel.defs _ _).mono (fun _ h c => (h c).2) (Cert.Kernel.Hand.run_main (F := Bits) m ρ)

/-- The idealized kernel likewise. -/
theorem frame_kernelIdeal : Cert.frame_KernelIdeal := fun m ρ _ =>
  (θ_run Cert.KernelIdeal.defs _ _).mono (fun _ h c => (h c).2) (Cert.KernelIdeal.Hand.run_main (F := Ideal) m ρ)

/-- The reference: its run of host operations, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the Gram matrix of the hidden layer. -/
theorem algebraic : Cert.algebraic_KernelIdeal_ReferenceIdeal := by
  intro m ρ m' ρ' _ hagree
  refine ⟨fun c => Cert.Gcn.result (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Bridge.kernel_value m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.RefSpec.ref_is_result, (hagree c).1, (hagree c).2.1, (hagree c).2.2.1,
      (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
